-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S128x256 : Shape := ⟨2, ![128, 256]⟩
abbrev S256 : Shape := ⟨1, ![256]⟩
abbrev S256x256 : Shape := ⟨2, ![256, 256]⟩
abbrev S256x2 : Shape := ⟨2, ![256, 2]⟩
abbrev S2 : Shape := ⟨1, ![2]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x2 : S_.BroadcastsInDim S256x2 (![] : Fin 0 → Fin S256x2.rank)
  reducesTo_S256x2_S_d0_1 : S256x2.ReducesTo [0, 1] S_
  bcast_S_S2 : S_.BroadcastsInDim S2 (![] : Fin 0 → Fin S2.rank)
  reducesTo_S2_S_d0 : S2.ReducesTo [0] S_

variable [Facts]

def fn_part2 {F : FTy → Type} [FloatOps F] (main_arg8 : FVec F S256x2 .f32) (main_arg9 : FVec F S2 .f32) (main_v33 : IVec S_ 1) : IVec S_ 1 :=
  let main_v34 : FVec F S256x2 .f32 := Host.absf main_arg8
  let main_cst_12 : FVec F S_ .f32 := constant S_ .f32 0x7F800000#32
  let main_v35 : FVec F S256x2 .f32 := broadcastInDim S256x2 ![] bcast_S_S256x2 main_cst_12
  let main_v36 : IVec S256x2 1 := cmpf .olt main_v34 main_v35
  let main_c_13 : IVec S_ 1 := constantI S_ 1 1#1
  let main_v37 : IVec S_ 1 := (fun x v => Host.reduce IntOp.andi x v reducesTo_S256x2_S_d0_1 h_S_) main_v36 main_c_13
  let main_v38 : IVec S_ 1 := andi main_v33 main_v37
  let main_v39 : FVec F S2 .f32 := Host.absf main_arg9
  let main_cst_14 : FVec F S_ .f32 := constant S_ .f32 0x7F800000#32
  let main_v40 : FVec F S2 .f32 := broadcastInDim S2 ![] bcast_S_S2 main_cst_14
  let main_v41 : IVec S2 1 := cmpf .olt main_v39 main_v40
  let main_c_15 : IVec S_ 1 := constantI S_ 1 1#1
  let main_v42 : IVec S_ 1 := (fun x v => Host.reduce IntOp.andi x v reducesTo_S2_S_d0 h_S_) main_v41 main_c_15
  let main_v43 : IVec S_ 1 := andi main_v38 main_v42
  main_v43

def fn_part1 {F : FTy → Type} [FloatOps F] (main_arg5 : FVec F S256 .f32) (main_arg6 : FVec F S256x256 .f32) (main_arg7 : FVec F S256 .f32) (main_arg8 : FVec F S256x2 .f32) (main_arg9 : FVec F S2 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg6
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg8 main_arg9 main_v33

def fn {F : FTy → Type} [FloatOps F] (main_arg0 : FVec F S50000x128 .f32) (main_arg1 : IVec S2x600000 32) (main_arg2 : FVec F S128x256 .f32) (main_arg3 : FVec F S256 .f32) (main_arg4 : FVec F S256x256 .f32) (main_arg5 : FVec F S256 .f32) (main_arg6 : FVec F S256x256 .f32) (main_arg7 : FVec F S256 .f32) (main_arg8 : FVec F S256x2 .f32) (main_arg9 : FVec F S2 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x256 .f32 := Host.absf main_arg2
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg4
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg5 main_arg6 main_arg7 main_arg8 main_arg9 main_v13 main_v16
-- ==== Kernel.lean ====
abbrev S50000x128 : Shape := ⟨2, ![50000, 128]⟩
abbrev S2x600000 : Shape := ⟨2, ![2, 600000]⟩
abbrev S128x256 : Shape := ⟨2, ![128, 256]⟩
abbrev S256 : Shape := ⟨1, ![256]⟩
abbrev S256x256 : Shape := ⟨2, ![256, 256]⟩
abbrev S256x2 : Shape := ⟨2, ![256, 2]⟩
abbrev S2 : Shape := ⟨1, ![2]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S1x256 : Shape := ⟨2, ![1, 256]⟩
abbrev S50000x256 : Shape := ⟨2, ![50000, 256]⟩
abbrev S5000x128 : Shape := ⟨2, ![5000, 128]⟩
abbrev S5000x256 : Shape := ⟨2, ![5000, 256]⟩
abbrev S600000x256 : Shape := ⟨2, ![600000, 256]⟩
abbrev S1x2 : Shape := ⟨2, ![1, 2]⟩
abbrev S50000x2 : Shape := ⟨2, ![50000, 2]⟩
abbrev S5000x2 : Shape := ⟨2, ![5000, 2]⟩
abbrev S5000 : Shape := ⟨1, ![5000]⟩
abbrev S5000x1 : Shape := ⟨2, ![5000, 1]⟩

abbrev nBuf : Space → Nat
  | .hbm => 48
  | .vmem => 16
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S128x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256x2, .f32⟩
  | .hbm, ⟨9, _⟩ => ⟨S2, .f32⟩
  | .hbm, ⟨10, _⟩ => ⟨S1x600000, .i32⟩
  | .hbm, ⟨11, _⟩ => ⟨S600000, .i32⟩
  | .hbm, ⟨12, _⟩ => ⟨S1x600000, .i32⟩
  | .hbm, ⟨13, _⟩ => ⟨S600000, .i32⟩
  | .hbm, ⟨14, _⟩ => ⟨S_, .i32⟩
  | .hbm, ⟨15, _⟩ => ⟨S600000, .i32⟩
  | .hbm, ⟨16, _⟩ => ⟨S600000, .i1⟩
  | .hbm, ⟨17, _⟩ => ⟨S_, .i32⟩
  | .hbm, ⟨18, _⟩ => ⟨S600000, .i32⟩
  | .hbm, ⟨19, _⟩ => ⟨S600000, .i32⟩
  | .hbm, ⟨20, _⟩ => ⟨S600000, .i32⟩
  | .hbm, ⟨21, _⟩ => ⟨S600000x1, .i32⟩
  | .hbm, ⟨22, _⟩ => ⟨S600000x128, .f32⟩
  | .hbm, ⟨23, _⟩ => ⟨S_, .f32⟩
  | .hbm, ⟨24, _⟩ => ⟨S50000x128, .f32⟩
  | .hbm, ⟨25, _⟩ => ⟨S600000x1, .i32⟩
  | .hbm, ⟨26, _⟩ => ⟨S50000x128, .f32⟩
  | .hbm, ⟨27, _⟩ => ⟨S50000x128, .f32⟩
  | .hbm, ⟨28, _⟩ => ⟨S1x256, .f32⟩
  | .hbm, ⟨29, _⟩ => ⟨S1x256, .f32⟩
  | .hbm, ⟨30, _⟩ => ⟨S50000x256, .f32⟩
  | .hbm, ⟨31, _⟩ => ⟨S_, .i32⟩
  | .hbm, ⟨32, _⟩ => ⟨S600000, .i32⟩
  | .hbm, ⟨33, _⟩ => ⟨S600000, .i1⟩
  | .hbm, ⟨34, _⟩ => ⟨S_, .i32⟩
  | .hbm, ⟨35, _⟩ => ⟨S600000, .i32⟩
  | .hbm, ⟨36, _⟩ => ⟨S600000, .i32⟩
  | .hbm, ⟨37, _⟩ => ⟨S600000, .i32⟩
  | .hbm, ⟨38, _⟩ => ⟨S600000x1, .i32⟩
  | .hbm, ⟨39, _⟩ => ⟨S600000x256, .f32⟩
  | .hbm, ⟨40, _⟩ => ⟨S_, .f32⟩
  | .hbm, ⟨41, _⟩ => ⟨S50000x256, .f32⟩
  | .hbm, ⟨42, _⟩ => ⟨S600000x1, .i32⟩
  | .hbm, ⟨43, _⟩ => ⟨S50000x256, .f32⟩
  | .hbm, ⟨44, _⟩ => ⟨S50000x256, .f32⟩
  | .hbm, ⟨45, _⟩ => ⟨S1x256, .f32⟩
  | .hbm, ⟨46, _⟩ => ⟨S1x2, .f32⟩
  | .hbm, ⟨47, _⟩ => ⟨S50000x2, .f32⟩
  | .local _ .vmem, ⟨0, _⟩ => ⟨S5000x128, .f32⟩
  | .local _ .vmem, ⟨1, _⟩ => ⟨S5000x128, .f32⟩
  | .local _ .vmem, ⟨2, _⟩ => ⟨S128x256, .f32⟩
  | .local _ .vmem, ⟨3, _⟩ => ⟨S1x256, .f32⟩
  | .local _ .vmem, ⟨4, _⟩ => ⟨S256x256, .f32⟩
  | .local _ .vmem, ⟨5, _⟩ => ⟨S1x256, .f32⟩
  | .local _ .vmem, ⟨6, _⟩ => ⟨S5000x256, .f32⟩
  | .local _ .vmem, ⟨7, _⟩ => ⟨S5000x256, .f32⟩
  | .local _ .vmem, ⟨8, _⟩ => ⟨S5000x256, .f32⟩
  | .local _ .vmem, ⟨9, _⟩ => ⟨S5000x256, .f32⟩
  | .local _ .vmem, ⟨10, _⟩ => ⟨S256x256, .f32⟩
  | .local _ .vmem, ⟨11, _⟩ => ⟨S1x256, .f32⟩
  | .local _ .vmem, ⟨12, _⟩ => ⟨S256x2, .f32⟩
  | .local _ .vmem, ⟨13, _⟩ => ⟨S1x2, .f32⟩
  | .local _ .vmem, ⟨14, _⟩ => ⟨S5000x2, .f32⟩
  | .local _ .vmem, ⟨15, _⟩ => ⟨S5000x2, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_c_1 : Ref sig .tc := ⟨.hbm, 31, rfl⟩
abbrev main_v18 : Ref sig .tc := ⟨.hbm, 32, rfl⟩
abbrev main_v19 : Ref sig .tc := ⟨.hbm, 33, rfl⟩
abbrev main_c_2 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_3 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x2 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x2 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x2 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  shapeCasts_S256_S1x256 : S256.ShapeCasts S1x256
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S256x256_S256x256_0_0 : ∀ a, (![0, 0] : Fin 2 → Nat) a + S256x256.size a ≤ S256x256.size a
  h_S256x256 : 0 < S256x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  inb_S5000x256_S5000x256_0_0 : ∀ a, (![0, 0] : Fin 2 → Nat) a + S5000x256.size a ≤ S5000x256.size a
  h_S5000x256 : 0 < S5000x256.numel
  bcast_S_S50000x256 : S_.BroadcastsInDim S50000x256 (![] : Fin 0 → Fin S50000x256.rank)
  shapeCasts_S2_S1x2 : S2.ShapeCasts S1x2
  shapeCasts_S5000x256_S5000x256 : S5000x256.ShapeCasts S5000x256
  inb_S256x2_S256x2_0_0 : ∀ a, (![0, 0] : Fin 2 → Nat) a + S256x2.size a ≤ S256x2.size a
  h_S256x2 : 0 < S256x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S5000x2 : S1x2.Broadcasts S5000x2
  reduces_S5000x2_S5000 : S5000x2.Reduces [1] S5000
  shapeCasts_S5000_S5000x1 : S5000.ShapeCasts S5000x1
  broadcasts_S5000x1_S5000x2 : S5000x1.Broadcasts S5000x2
  inb_S5000x2_S5000x2_0_0 : ∀ a, (![0, 0] : Fin 2 → Nat) a + S5000x2.size a ≤ S5000x2.size a
  h_S5000x2 : 0 < S5000x2.numel
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S5000x128_S128x256_S5000x256_1_0_0_1_n_n_wf : DotDims.WF S5000x128 S128x256 S5000x256 [1] [0] [0] [1] [] []
  dot_S5000x256_S256x256_S5000x256_1_0_0_1_n_n_wf : DotDims.WF S5000x256 S256x256 S5000x256 [1] [0] [0] [1] [] []
  gather_S50000x256_S600000x1_S600000x256_1_0_n_n_0_1_1256_wf : GatherDims.WF S50000x256 S600000x1 S600000x256 [1] [0] [] [0] [] 1 ![1, 256]
  scatter_S50000x256_S600000x1_S600000x256_1_0_0_1_wf : ScatterDims.WF S50000x256 S600000x1 S600000x256 [1] [0] [0] 1
  dot_S5000x256_S256x2_S5000x2_1_0_0_1_n_n_wf : DotDims.WF S5000x256 S256x2 S5000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x256.size a ≤ S50000x256.size a
  hwx0_5 : ∀ i : grid0.Coords, EltTy.bits .f32 = 32 ∨ (Rect.block (s := S50000x256) S5000x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S50000x256.size a
  hwx1_0 : ∀ i : grid1.Coords, EltTy.bits .f32 = 32 ∨ (Rect.block (s := S50000x256) S5000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .f32 = 32 ∨ (Rect.block (s := S256x256) S256x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x2.size a ≤ S256x2.size a
  hwx1_3 : ∀ i : grid1.Coords, EltTy.bits .f32 = 32 ∨ (Rect.block (s := S256x2) S256x2.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x2.size a ≤ S1x2.size a
  hwx1_4 : ∀ i : grid1.Coords, EltTy.bits .f32 = 32 ∨ (Rect.block (s := S1x2) S1x2.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x2.size a ≤ S50000x2.size a
  hwx1_5 : ∀ i : grid1.Coords, EltTy.bits .f32 = 32 ∨ (Rect.block (s := S50000x2) S5000x2.size (cc1_transform_5 i) (hinb1_5 i)).WholeWords (EltTy.packing .f32)

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def dot_S5000x256_S256x256_S5000x256_1_0_0_1_n_n : DotDims S5000x256 S256x256 S5000x256 where
  lhsContracting := [1]
  rhsContracting := [0]
  lhsNonContracting := [0]
  rhsNonContracting := [1]
  lhsBatch := []
  rhsBatch := []
  wf := dot_S5000x256_S256x256_S5000x256_1_0_0_1_n_n_wf
def gather_S50000x256_S600000x1_S600000x256_1_0_n_n_0_1_1256 : GatherDims S50000x256 S600000x1 S600000x256 where
  offsetDims := [1]
  collapsedSliceDims := [0]
  operandBatchingDims := []
  startIndicesBatchingDims := []
  startIndexMap := [0]
  indexVectorDim := 1
  sliceSizes := ![1, 256]
  wf := gather_S50000x256_S600000x1_S600000x256_1_0_n_n_0_1_1256_wf
def scatter_S50000x256_S600000x1_S600000x256_1_0_0_1 : ScatterDims S50000x256 S600000x1 S600000x256 where
  updateWindowDims := [1]
  insertedWindowDims := [0]
  scatterDimsToOperandDims := [0]
  indexVectorDim := 1
  wf := scatter_S50000x256_S600000x1_S600000x256_1_0_0_1_wf
def dot_S5000x256_S256x2_S5000x2_1_0_0_1_n_n : DotDims S5000x256 S256x2 S5000x2 where
  lhsContracting := [1]
  rhsContracting := [0]
  lhsNonContracting := [0]
  rhsNonContracting := [1]
  lhsBatch := []
  rhsBatch := []
  wf := dot_S5000x256_S256x2_S5000x2_1_0_0_1_n_n_wf

abbrev win0_0 : Pipeline.Window sig grid0 :=
  Pipeline.Window.ofSpec (Memref.whole main_v14) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v16) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v17) S5000x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v28) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v29) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg8) S256x2.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v30) S1x2.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v31) S5000x2.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S128x256 : Shape := ⟨2, ![128, 256]⟩
abbrev S256 : Shape := ⟨1, ![256]⟩
abbrev S256x256 : Shape := ⟨2, ![256, 256]⟩
abbrev S256x2 : Shape := ⟨2, ![256, 2]⟩
abbrev S2 : Shape := ⟨1, ![2]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S50000x256 : Shape := ⟨2, ![50000, 256]⟩
abbrev S1x256 : Shape := ⟨2, ![1, 256]⟩
abbrev S600000x256 : Shape := ⟨2, ![600000, 256]⟩
abbrev S50000x2 : Shape := ⟨2, ![50000, 2]⟩
abbrev S1x2 : Shape := ⟨2, ![1, 2]⟩
abbrev S50000 : Shape := ⟨1, ![50000]⟩
abbrev S50000x1 : Shape := ⟨2, ![50000, 1]⟩

abbrev nBuf : Space → Nat
  | .hbm => 82
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S128x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256x2, .f32⟩
  | .hbm, ⟨9, _⟩ => ⟨S2, .f32⟩
  | .hbm, ⟨10, _⟩ => ⟨S1x600000, .i32⟩
  | .hbm, ⟨11, _⟩ => ⟨S600000, .i32⟩
  | .hbm, ⟨12, _⟩ => ⟨S1x600000, .i32⟩
  | .hbm, ⟨13, _⟩ => ⟨S600000, .i32⟩
  | .hbm, ⟨14, _⟩ => ⟨S_, .i32⟩
  | .hbm, ⟨15, _⟩ => ⟨S600000, .i32⟩
  | .hbm, ⟨16, _⟩ => ⟨S600000, .i1⟩
  | .hbm, ⟨17, _⟩ => ⟨S_, .i32⟩
  | .hbm, ⟨18, _⟩ => ⟨S600000, .i32⟩
  | .hbm, ⟨19, _⟩ => ⟨S600000, .i32⟩
  | .hbm, ⟨20, _⟩ => ⟨S600000, .i32⟩
  | .hbm, ⟨21, _⟩ => ⟨S600000x1, .i32⟩
  | .hbm, ⟨22, _⟩ => ⟨S600000x128, .f32⟩
  | .hbm, ⟨23, _⟩ => ⟨S_, .f32⟩
  | .hbm, ⟨24, _⟩ => ⟨S50000x128, .f32⟩
  | .hbm, ⟨25, _⟩ => ⟨S600000x1, .i32⟩
  | .hbm, ⟨26, _⟩ => ⟨S50000x128, .f32⟩
  | .hbm, ⟨27, _⟩ => ⟨S50000x128, .f32⟩
  | .hbm, ⟨28, _⟩ => ⟨S50000x256, .f32⟩
  | .hbm, ⟨29, _⟩ => ⟨S1x256, .f32⟩
  | .hbm, ⟨30, _⟩ => ⟨S50000x256, .f32⟩
  | .hbm, ⟨31, _⟩ => ⟨S50000x256, .f32⟩
  | .hbm, ⟨32, _⟩ => ⟨S_, .f32⟩
  | .hbm, ⟨33, _⟩ => ⟨S50000x256, .f32⟩
  | .hbm, ⟨34, _⟩ => ⟨S50000x256, .f32⟩
  | .hbm, ⟨35, _⟩ => ⟨S50000x256, .f32⟩
  | .hbm, ⟨36, _⟩ => ⟨S1x256, .f32⟩
  | .hbm, ⟨37, _⟩ => ⟨S50000x256, .f32⟩
  | .hbm, ⟨38, _⟩ => ⟨S50000x256, .f32⟩
  | .hbm, ⟨39, _⟩ => ⟨S_, .f32⟩
  | .hbm, ⟨40, _⟩ => ⟨S50000x256, .f32⟩
  | .hbm, ⟨41, _⟩ => ⟨S50000x256, .f32⟩
  | .hbm, ⟨42, _⟩ => ⟨S_, .i32⟩
  | .hbm, ⟨43, _⟩ => ⟨S600000, .i32⟩
  | .hbm, ⟨44, _⟩ => ⟨S600000, .i1⟩
  | .hbm, ⟨45, _⟩ => ⟨S_, .i32⟩
  | .hbm, ⟨46, _⟩ => ⟨S600000, .i32⟩
  | .hbm, ⟨47, _⟩ => ⟨S600000, .i32⟩
  | .hbm, ⟨48, _⟩ => ⟨S600000, .i32⟩
  | .hbm, ⟨49, _⟩ => ⟨S600000x1, .i32⟩
  | .hbm, ⟨50, _⟩ => ⟨S600000x256, .f32⟩
  | .hbm, ⟨51, _⟩ => ⟨S_, .f32⟩
  | .hbm, ⟨52, _⟩ => ⟨S50000x256, .f32⟩
  | .hbm, ⟨53, _⟩ => ⟨S600000x1, .i32⟩
  | .hbm, ⟨54, _⟩ => ⟨S50000x256, .f32⟩
  | .hbm, ⟨55, _⟩ => ⟨S50000x256, .f32⟩
  | .hbm, ⟨56, _⟩ => ⟨S50000x256, .f32⟩
  | .hbm, ⟨57, _⟩ => ⟨S1x256, .f32⟩
  | .hbm, ⟨58, _⟩ => ⟨S50000x256, .f32⟩
  | .hbm, ⟨59, _⟩ => ⟨S50000x256, .f32⟩
  | .hbm, ⟨60, _⟩ => ⟨S_, .f32⟩
  | .hbm, ⟨61, _⟩ => ⟨S50000x256, .f32⟩
  | .hbm, ⟨62, _⟩ => ⟨S50000x256, .f32⟩
  | .hbm, ⟨63, _⟩ => ⟨S50000x2, .f32⟩
  | .hbm, ⟨64, _⟩ => ⟨S1x2, .f32⟩
  | .hbm, ⟨65, _⟩ => ⟨S50000x2, .f32⟩
  | .hbm, ⟨66, _⟩ => ⟨S50000x2, .f32⟩
  | .hbm, ⟨67, _⟩ => ⟨S_, .f32⟩
  | .hbm, ⟨68, _⟩ => ⟨S50000, .f32⟩
  | .hbm, ⟨69, _⟩ => ⟨S_, .f32⟩
  | .hbm, ⟨70, _⟩ => ⟨S50000, .f32⟩
  | .hbm, ⟨71, _⟩ => ⟨S50000, .f32⟩
  | .hbm, ⟨72, _⟩ => ⟨S50000x1, .f32⟩
  | .hbm, ⟨73, _⟩ => ⟨S50000x2, .f32⟩
  | .hbm, ⟨74, _⟩ => ⟨S50000x2, .f32⟩
  | .hbm, ⟨75, _⟩ => ⟨S50000x2, .f32⟩
  | .hbm, ⟨76, _⟩ => ⟨S_, .f32⟩
  | .hbm, ⟨77, _⟩ => ⟨S50000, .f32⟩
  | .hbm, ⟨78, _⟩ => ⟨S50000x1, .f32⟩
  | .hbm, ⟨79, _⟩ => ⟨S50000x1, .f32⟩
  | .hbm, ⟨80, _⟩ => ⟨S50000x2, .f32⟩
  | .hbm, ⟨81, _⟩ => ⟨S50000x2, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_1 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_2 : Ref sig .tc := ⟨.hbm, 39, rfl⟩
abbrev main_v25 : Ref sig .tc := ⟨.hbm, 40, rfl⟩
abbrev main_v26 : Ref sig .tc := ⟨.hbm, 41, rfl⟩
abbrev main_c_3 : Ref sig .tc := ⟨.hbm, 42, rfl⟩
abbrev main_v27 : Ref sig .tc := ⟨.hbm, 43, rfl⟩
abbrev main_v28 : Ref sig .tc := ⟨.hbm, 44, rfl⟩
abbrev main_c_4 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_5 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_6 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_call0_cst : Ref sig .tc := ⟨.hbm, 67, rfl⟩
abbrev main_call0_v0 : Ref sig .tc := ⟨.hbm, 68, rfl⟩
abbrev main_call0_cst_0 : Ref sig .tc := ⟨.hbm, 69, rfl⟩
abbrev main_call0_v1 : Ref sig .tc := ⟨.hbm, 70, rfl⟩
abbrev main_call0_v2 : Ref sig .tc := ⟨.hbm, 71, rfl⟩
abbrev main_call0_v3 : Ref sig .tc := ⟨.hbm, 72, rfl⟩
abbrev main_call0_v4 : Ref sig .tc := ⟨.hbm, 73, rfl⟩
abbrev main_call0_v5 : Ref sig .tc := ⟨.hbm, 74, rfl⟩
abbrev main_call0_v6 : Ref sig .tc := ⟨.hbm, 75, rfl⟩
abbrev main_call0_cst_1 : Ref sig .tc := ⟨.hbm, 76, rfl⟩
abbrev main_call0_v7 : Ref sig .tc := ⟨.hbm, 77, rfl⟩
abbrev main_call0_v8 : Ref sig .tc := ⟨.hbm, 78, rfl⟩
abbrev main_call0_v9 : Ref sig .tc := ⟨.hbm, 79, rfl⟩
abbrev main_call0_v10 : Ref sig .tc := ⟨.hbm, 80, rfl⟩
abbrev main_v48 : Ref sig .tc := ⟨.hbm, 81, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S2_S1x2_1 : S2.BroadcastsInDim S1x2 (![1] : Fin 1 → Fin S1x2.rank)
  bcast_S1x2_S50000x2_0_1 : S1x2.BroadcastsInDim S50000x2 (![0, 1] : Fin 2 → Fin S50000x2.rank)
  reducesTo_S50000x2_S50000_d1 : S50000x2.ReducesTo [1] S50000
  h_S_ : 0 < S_.numel
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x2_0_1 : S50000x1.BroadcastsInDim S50000x2 (![0, 1] : Fin 2 → Fin S50000x2.rank)
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S50000x128_S128x256_S50000x256_1_0_0_1_n_n_wf : DotDims.WF S50000x128 S128x256 S50000x256 [1] [0] [0] [1] [] []
  dot_S50000x256_S256x256_S50000x256_1_0_0_1_n_n_wf : DotDims.WF S50000x256 S256x256 S50000x256 [1] [0] [0] [1] [] []
  gather_S50000x256_S600000x1_S600000x256_1_0_n_n_0_1_1256_wf : GatherDims.WF S50000x256 S600000x1 S600000x256 [1] [0] [] [0] [] 1 ![1, 256]
  scatter_S50000x256_S600000x1_S600000x256_1_0_0_1_wf : ScatterDims.WF S50000x256 S600000x1 S600000x256 [1] [0] [0] 1
  dot_S50000x256_S256x2_S50000x2_1_0_0_1_n_n_wf : DotDims.WF S50000x256 S256x2 S50000x2 [1] [0] [0] [1] [] []

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def gather_S50000x256_S600000x1_S600000x256_1_0_n_n_0_1_1256 : GatherDims S50000x256 S600000x1 S600000x256 where
  offsetDims := [1]
  collapsedSliceDims := [0]
  operandBatchingDims := []
  startIndicesBatchingDims := []
  startIndexMap := [0]
  indexVectorDim := 1
  sliceSizes := ![1, 256]
  wf := gather_S50000x256_S600000x1_S600000x256_1_0_n_n_0_1_1256_wf
def scatter_S50000x256_S600000x1_S600000x256_1_0_0_1 : ScatterDims S50000x256 S600000x1 S600000x256 where
  updateWindowDims := [1]
  insertedWindowDims := [0]
  scatterDimsToOperandDims := [0]
  indexVectorDim := 1
  wf := scatter_S50000x256_S600000x1_S600000x256_1_0_0_1_wf
def dot_S50000x256_S256x2_S50000x2_1_0_0_1_n_n : DotDims S50000x256 S256x2 S50000x2 where
  lhsContracting := [1]
  rhsContracting := [0]
  lhsNonContracting := [0]
  rhsNonContracting := [1]
  lhsBatch := []
  rhsBatch := []
  wf := dot_S50000x256_S256x2_S50000x2_1_0_0_1_n_n_wf

class Facts : Prop extends Facts₀ where

variable [Facts]
-- ==== Proof.LibDenseDefs.lean ====
import Idealize.ShloMosaic.PureOps.Ideal
import Idealize.ShloMosaic.Lib.ValueIdx

/-!
# Dense layers on rows of extended reals: the definitions

A dense layer sends the rows of an `M × K` array `x` to `x · w + b`: entry `(r, q)` is `∑ k, x[r, k] · w[k, q] + b[q]`
(`lin`). `relu x = max x 0`; `cat` joins two arrays along the columns. All at an arbitrary number of rows.
-/

noncomputable section

namespace Cert.LibDense

open Idealize.ShloMosaic Idealize.ShloMosaic.ValueIdx

/-- An `m × n` array of extended reals. -/
abbrev Mat (m n : Nat) := (⟨2, ![m, n]⟩ : Shape).Idx → EReal
/-- A vector of `n` extended reals. -/
abbrev Row (n : Nat) := (⟨1, ![n]⟩ : Shape).Idx → EReal

/-- `max x 0`. -/
def relu (x : EReal) : EReal := max x 0

/-- `relu` entry by entry, over any index type. -/
def reluM {ι : Type} (x : ι → EReal) : ι → EReal := fun i => relu (x i)

/-- The dense layer `x · w + b`: entry `(r, q)` is `∑ k, x[r, k] · w[k, q] + b[q]`. -/
def lin {M K N : Nat} (x : Mat M K) (w : Mat K N) (b : Row N) : Mat M N :=
  fun i => (∑ k : Fin K, x (ix2 (i 0) k) * w (ix2 k (i 1))) + b (ix1 (i 1))

/-- Two arrays side by side: columns `0 … A-1` are `s`'s, columns `A … A+B-1` are `d`'s. -/
def cat {M A B : Nat} (s : Mat M A) (d : Mat M B) : Mat M (A + B) :=
  fun i => if h : (i 1).val < A then s (ix2 (i 0) ⟨(i 1).val, h⟩)
    else d (ix2 (i 0) ⟨(i 1).val - A, by have := (i 1).isLt; change (i 1).val < A + B at this; omega⟩)

theorem lin_apply {M K N : Nat} (x : Mat M K) (w : Mat K N) (b : Row N) (r : Fin M) (q : Fin N) :
    lin x w b (ix2 r q) = (∑ k : Fin K, x (ix2 r k) * w (ix2 k q)) + b (ix1 q) := rfl

end Cert.LibDense

end
-- ==== Proof.LibContract.lean ====
import Idealize.ShloMosaic.PureOps.Ideal.Laws
import Idealize.ShloMosaic.Lib.ValueIdx

/-!
# The plain contraction `[M, K] × [K, N]` read at an entry, on the extended reals

`DotDims.plain M K N` has the fields of every printed `…_1_0_0_1_n_n` record of rank-2 operands (contract the left
operand's axis 1 with the right operand's axis 0, no batch axes). Over it the host's `dot_general` and a kernel's
`tpu.matmul` into the zero splat are both, at entry `(p, q)`, the sum over `k` of `a[p, k] · b[k, q]`.
-/

noncomputable section

namespace Cert.LibDense

open Idealize.ShloMosaic Idealize.ShloMosaic.ValueIdx

/-! ## The operand indices of the plain contraction, axis by axis

At result index `j` and contraction index `c` the left operand is read at `(j 0, c)` and the right one at `(c, j 1)`:
a kept axis reads the result index at its place, the contracted axis reads the one coordinate of `c`. -/

/-- The left operand's row is the result's row. -/
theorem plain_lhs_0 (M K N : Nat) (j : (⟨2, ![M, N]⟩ : Shape).Idx) (c : (DotDims.plain M K N).contr.Idx) :
    ((DotDims.plain M K N).lhsIdx j c 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column is the contraction index's coordinate. -/
theorem plain_lhs_1 (M K N : Nat) (j : (⟨2, ![M, N]⟩ : Shape).Idx) (c : (DotDims.plain M K N).contr.Idx) :
    ((DotDims.plain M K N).lhsIdx j c 1).val = (c ⟨0, Nat.one_pos⟩).val :=
  (DotDims.plain M K N).lhsIdx_val_of_single rfl j c

/-- The right operand's row is the contraction index's coordinate. -/
theorem plain_rhs_0 (M K N : Nat) (j : (⟨2, ![M, N]⟩ : Shape).Idx) (c : (DotDims.plain M K N).contr.Idx) :
    ((DotDims.plain M K N).rhsIdx j c 0).val = (c ⟨0, Nat.one_pos⟩).val :=
  (DotDims.plain M K N).rhsIdx_val_of_single rfl j c

/-- The right operand's column is the result's column. -/
theorem plain_rhs_1 (M K N : Nat) (j : (⟨2, ![M, N]⟩ : Shape).Idx) (c : (DotDims.plain M K N).contr.Idx) :
    ((DotDims.plain M K N).rhsIdx j c 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the one-axis contraction index, re-indexed by its coordinate `k : Fin K` and with both operand
    indices read off: `∑ k, a[p, k] · b[k, q]`. -/
theorem plain_sum (M K N : Nat) {φ₁ φ₂ : FTy} (a : FVec Ideal (⟨2, ![M, K]⟩ : Shape) φ₁)
    (b : FVec Ideal (⟨2, ![K, N]⟩ : Shape) φ₂) (p : Fin M) (q : Fin N) :
    (∑ c : (DotDims.plain M K N).contr.Idx,
        a ((DotDims.plain M K N).lhsIdx (ix2 p q) c) * b ((DotDims.plain M K N).rhsIdx (ix2 p q) c))
      = ∑ k : Fin K, a (ix2 p k) * b (ix2 k q) := by
  rw [← Equiv.sum_comp (ValueIdx.contrEquiv1 (DotDims.plain M K N) K rfl rfl).symm]
  refine Finset.sum_congr rfl fun k _ => ?_
  have hk := ValueIdx.contrEquiv1_symm_val (DotDims.plain M K N) K rfl rfl k
  have el : (DotDims.plain M K N).lhsIdx (ix2 p q) ((ValueIdx.contrEquiv1 (DotDims.plain M K N) K rfl rfl).symm k)
      = ix2 p k := funext fun x => Fin.ext (by
    match x with
    | ⟨0, _⟩ => exact plain_lhs_0 M K N _ _
    | ⟨1, _⟩ => exact (plain_lhs_1 M K N _ _).trans hk)
  have er : (DotDims.plain M K N).rhsIdx (ix2 p q) ((ValueIdx.contrEquiv1 (DotDims.plain M K N) K rfl rfl).symm k)
      = ix2 k q := funext fun x => Fin.ext (by
    match x with
    | ⟨0, _⟩ => exact (plain_rhs_0 M K N _ _).trans hk
    | ⟨1, _⟩ => exact plain_rhs_1 M K N _ _)
  rw [el, er]

/-! ## The contraction read at an entry -/

/-- The host's `dot_general` over the plain contraction, at entry `(p, q)`: `∑ k, a[p, k] · b[k, q]`. -/
theorem dotGeneral_plain_apply (M K N : Nat) {φ₁ φ₂ : FTy} (prec : Option ContractPrecision)
    (a : FVec Ideal (⟨2, ![M, K]⟩ : Shape) φ₁) (b : FVec Ideal (⟨2, ![K, N]⟩ : Shape) φ₂) (p : Fin M) (q : Fin N) :
    Host.dotGeneral (DotDims.plain M K N) prec a b (ix2 p q) = ∑ k : Fin K, a (ix2 p k) * b (ix2 k q) := by
  simp only [Host.dotGeneral]
  rw [Ideal.dotGeneral_apply]
  exact plain_sum M K N a b p q

/-- A kernel's `tpu.matmul` over the plain contraction into the zero splat, at entry `(p, q)`: the same sum. -/
theorem matmul_plain_zero_apply (M K N : Nat) {φ₁ φ₂ : FTy} (prec : Option ContractPrecision)
    (a : FVec Ideal (⟨2, ![M, K]⟩ : Shape) φ₁) (b : FVec Ideal (⟨2, ![K, N]⟩ : Shape) φ₂) (p : Fin M) (q : Fin N) :
    matmul (DotDims.plain M K N) prec a b (constant (F := Ideal) (⟨2, ![M, N]⟩ : Shape) .f32 0x00000000#32) (ix2 p q)
      = ∑ k : Fin K, a (ix2 p k) * b (ix2 k q) := by
  simp only [matmul]
  rw [Ideal.matmul_constant_zero_apply]
  exact plain_sum M K N a b p q

end Cert.LibDense

end
-- ==== Proof.LibLayout.lean ====
import proofs.«164433_j46909632807735_1_alg».proof.Proof.LibDenseDefs
import Idealize.ShloMosaic.PureOps.Ideal.Laws
import Idealize.ShloMosaic.Lib.ValueLayout
import Idealize.ShloMosaic.Lib.Pipeline.Value
import Idealize.ShloMosaic.Lib.StableHlo.Predicate

/-!
# Bias, `relu` and the column join, in the host's spelling and in a kernel's, read at an entry

* the bias of a row vector, as the host spells it (`broadcast_in_dim` twice: `[N] → [1, N] → [M, N]`) and as a kernel
  spells it (`shape_cast` to `[1, N]`, `broadcast` to `[M, N]`): both are `b[q]` at `(p, q)`;
* `max · 0` against the zero splat, in the host's and in a kernel's spelling: `relu` entry by entry;
* `concatenate` of two arrays along the columns: `cat`.
-/

noncomputable section

namespace Cert.LibDense

open Idealize.ShloMosaic Idealize.ShloMosaic.ValueIdx

/-! ## The bias read at an entry -/

/-- The host's bias: a row vector broadcast `[N] → [1, N] → [M, N]` reads `b[q]` at `(p, q)`. -/
theorem hostBias_apply {α : Type} (M N : Nat) (h₁ : (⟨1, ![N]⟩ : Shape).BroadcastsInDim ⟨2, ![1, N]⟩ ![1])
    (h₂ : (⟨2, ![1, N]⟩ : Shape).BroadcastsInDim ⟨2, ![M, N]⟩ ![0, 1]) (b : (⟨1, ![N]⟩ : Shape).Idx → α) (p : Fin M) (q : Fin N) :
    broadcastInDim ⟨2, ![M, N]⟩ ![0, 1] h₂ (broadcastInDim ⟨2, ![1, N]⟩ ![1] h₁ b) (ix2 p q) = b (ix1 q) := by
  -- the two spellings of the index (p, q), and of the index q, are the same function of the coordinate
  have e2 : (ix2 p q : (⟨2, ![M, N]⟩ : Shape).Idx) = StableHlo.Predicate.ij p q := by
    funext a; match a with | ⟨0, _⟩ => rfl | ⟨1, _⟩ => rfl
  have e1 : (ix1 q : (⟨1, ![N]⟩ : Shape).Idx) = Shape.Idx.ofFin q := by
    funext a; match a with | ⟨0, _⟩ => rfl
  rw [e2, e1]
  exact StableHlo.Predicate.bcast_cols h₁ h₂ b p q

/-- A kernel's bias: a row vector shape-cast to `[1, N]` and broadcast to `[M, N]` reads `b[q]` at `(p, q)`. -/
theorem kernBias_apply {α : Type} (M N : Nat) (hc : (⟨1, ![N]⟩ : Shape).ShapeCasts ⟨2, ![1, N]⟩)
    (hb : (⟨2, ![1, N]⟩ : Shape).Broadcasts ⟨2, ![M, N]⟩) (b : (⟨1, ![N]⟩ : Shape).Idx → α) (p : Fin M) (q : Fin N) :
    broadcastTo ⟨2, ![M, N]⟩ (shapeCast ⟨2, ![1, N]⟩ b hc) hb (ix2 p q) = b (ix1 q) := by
  have hq := q.isLt
  -- the broadcast reads the [1, N] row at (0, q): axis 0 of the row is a unit axis, axis 1 keeps the column
  refine (broadcastTo_apply (shapeCast ⟨2, ![1, N]⟩ b hc) hb (ix2 p q) (ix2 (0 : Fin 1) q) ?_).trans ?_
  · intro a
    match a with
    | ⟨0, _⟩ => exact (if_pos rfl).symm
    | ⟨1, _⟩ =>
      show q.val = if N = 1 then 0 else q.val
      split
      · omega
      · rfl
  -- the shape cast keeps the row-major position: 0 * N + q = q
  · refine shapeCast_apply b hc (ix2 (0 : Fin 1) q) (ix1 q) ?_
    rw [Shape.rowMajor_val_one, Shape.rowMajor_val_two]
    show q.val = 0 * N + q.val
    omega

/-! ## `relu` in the two spellings -/

/-- The host's `maximum(x, broadcast(0.0))` is `relu` entry by entry. -/
theorem hostRelu_eq {s : Shape} (h : (⟨0, ![]⟩ : Shape).BroadcastsInDim s ![]) (x : FVec Ideal s .f32) :
    maximumf x (broadcastInDim s ![] h (constant (F := Ideal) (⟨0, ![]⟩ : Shape) .f32 0x00000000#32)) = reluM x := by
  funext i
  show max (x i) (broadcastInDim s ![] h (constant (F := Ideal) (⟨0, ![]⟩ : Shape) .f32 0x00000000#32) i) = relu (x i)
  rw [StableHlo.Predicate.bcast_scalar h (by decide) _ i, constant_apply, Ideal.ofBits_zero_f32]
  rfl

/-- A kernel's `maximumf(x, broadcast 0.0)` is `relu` entry by entry. -/
theorem kernRelu_eq {s : Shape} (x : FVec Ideal s .f32) :
    maximumf x (broadcast s (Scalar.ofBits (F := Ideal) .f32 0x00000000#32)) = reluM x := by
  funext i
  show max (x i) (Ideal.ofBits .f32 0x00000000#32) = relu (x i)
  rw [Ideal.ofBits_zero_f32]
  rfl

/-! ## The column join -/

/-- `concatenate` of two arrays along the columns is `cat`. -/
theorem concat_eq (M A B : Nat) (h : Shape.Concatenates [(⟨2, ![M, A]⟩ : Shape), (⟨2, ![M, B]⟩ : Shape)] (⟨2, ![M, A + B]⟩ : Shape) 1)
    (s : Mat M A) (d : Mat M B) :
    concatenate (⟨2, ![M, A + B]⟩ : Shape) 1 [⟨(⟨2, ![M, A]⟩ : Shape), s⟩, ⟨(⟨2, ![M, B]⟩ : Shape), d⟩] h = cat s d := by
  funext i
  have hi1 : (i 1).val < A + B := (i 1).isLt
  unfold cat
  by_cases hlt : (i 1).val < A
  -- a column below A lies in the first piece, at the same coordinates
  · rw [dif_pos hlt]
    refine concatenate_pair_apply_left (1 : Fin 2) s d h i rfl (ix2 (i 0) ⟨(i 1).val, hlt⟩) ?_
    intro b
    match b with
    | ⟨0, _⟩ => rfl
    | ⟨1, _⟩ => rfl
  -- a column at or past A lies in the second piece, A columns to the left
  · rw [dif_neg hlt]
    refine concatenate_pair_apply_right (1 : Fin 2) s d h i rfl rfl (ix2 (i 0) ⟨(i 1).val - A, by omega⟩) ?_ ?_
    · intro b hb
      match b, hb with
      | ⟨0, _⟩, _ => rfl
      | ⟨1, _⟩, hb => exact absurd rfl hb
    · show (i 1).val - A + A = (i 1).val
      omega

end Cert.LibDense

end
-- ==== Proof.LibDense.lean ====
import proofs.«164433_j46909632807735_1_alg».proof.Proof.LibDenseDefs
import proofs.«164433_j46909632807735_1_alg».proof.Proof.LibContract
import proofs.«164433_j46909632807735_1_alg».proof.Proof.LibLayout

/-!
# Dense layers on rows of extended reals, and the two spellings a program has for them

The dense layer `lin x w b = x · w + b` acts row by row: an entry of row `r` depends on row `r` of `x` only (`lin_rows`),
so the same definition at a block of rows and at the whole array is one function. The host's
`dot_general(x, w) + broadcast(b)` and a kernel's `matmul(bf16 x, bf16 w, 0) + broadcast(shape_cast b)` are both `lin x w b`
on the extended reals, where a change of float format is the identity.
-/

noncomputable section

namespace Cert.LibDense

open Idealize.ShloMosaic Idealize.ShloMosaic.ValueIdx

/-- An entry of row `r` of `x · w + b` is a function of row `r` of `x`, column `q` of `w` and `b[q]`. -/
theorem lin_rows {M M' K N : Nat} (x : Mat M K) (x' : Mat M' K) (w w' : Mat K N) (b b' : Row N) (r : Fin M) (r' : Fin M')
    (q : Fin N) (hx : ∀ k : Fin K, x (ix2 r k) = x' (ix2 r' k)) (hw : ∀ k : Fin K, w (ix2 k q) = w' (ix2 k q))
    (hb : b (ix1 q) = b' (ix1 q)) : lin x w b (ix2 r q) = lin x' w' b' (ix2 r' q) := by
  rw [lin_apply, lin_apply, hb]
  congr 1
  exact Finset.sum_congr rfl fun k _ => by rw [hx k, hw k]

/-- Row `r` of the join is row `r` of each part. -/
theorem cat_rows {M M' A B : Nat} (s : Mat M A) (d : Mat M B) (s' : Mat M' A) (d' : Mat M' B) (r : Fin M) (r' : Fin M')
    (hs : ∀ k : Fin A, s (ix2 r k) = s' (ix2 r' k)) (hd : ∀ k : Fin B, d (ix2 r k) = d' (ix2 r' k)) (k : Fin (A + B)) :
    cat s d (ix2 r k) = cat s' d' (ix2 r' k) := by
  by_cases h : k.val < A
  · have e : cat s d (ix2 r k) = s (ix2 r ⟨k.val, h⟩) := dif_pos h
    have e' : cat s' d' (ix2 r' k) = s' (ix2 r' ⟨k.val, h⟩) := dif_pos h
    rw [e, e']
    exact hs _
  · have e : cat s d (ix2 r k) = d (ix2 r ⟨k.val - A, by have := k.isLt; omega⟩) := dif_neg h
    have e' : cat s' d' (ix2 r' k) = d' (ix2 r' ⟨k.val - A, by have := k.isLt; omega⟩) := dif_neg h
    rw [e, e']
    exact hd _

/-! ## The printed layer is `lin` -/

/-- The host's `dot_general(x, w) + broadcast(b)` is `lin x w b`. -/
theorem hostLin_eq (M K N : Nat) (prec : Option ContractPrecision) (h₁ : (⟨1, ![N]⟩ : Shape).BroadcastsInDim ⟨2, ![1, N]⟩ ![1])
    (h₂ : (⟨2, ![1, N]⟩ : Shape).BroadcastsInDim ⟨2, ![M, N]⟩ ![0, 1])
    (x : FVec Ideal (⟨2, ![M, K]⟩ : Shape) .f32) (w : FVec Ideal (⟨2, ![K, N]⟩ : Shape) .f32) (b : FVec Ideal (⟨1, ![N]⟩ : Shape) .f32) :
    addf (Host.dotGeneral (DotDims.plain M K N) prec x w)
        (broadcastInDim ⟨2, ![M, N]⟩ ![0, 1] h₂ (broadcastInDim ⟨2, ![1, N]⟩ ![1] h₁ b))
      = lin x w b := by
  funext i
  obtain ⟨p, q, rfl⟩ : ∃ (p : Fin M) (q : Fin N), i = ix2 p q := ⟨i 0, i 1, eq_ix2 i⟩
  refine (addf_apply _ _ _).trans ?_
  rw [dotGeneral_plain_apply, hostBias_apply, lin_apply]

/-- A kernel's `matmul(bf16 x, bf16 w, 0) + broadcast(shape_cast b)` is `lin x w b`: at the extended reals the change of
    format is the identity. -/
theorem kernLin_eq (M K N : Nat) (prec : Option ContractPrecision) (hc : (⟨1, ![N]⟩ : Shape).ShapeCasts ⟨2, ![1, N]⟩)
    (hb : (⟨2, ![1, N]⟩ : Shape).Broadcasts ⟨2, ![M, N]⟩) (ht : FTy.bf16.bits < FTy.f32.bits)
    (x : FVec Ideal (⟨2, ![M, K]⟩ : Shape) .f32) (w : FVec Ideal (⟨2, ![K, N]⟩ : Shape) .f32) (b : FVec Ideal (⟨1, ![N]⟩ : Shape) .f32) :
    addf (matmul (DotDims.plain M K N) prec (truncf .bf16 x ht) (truncf .bf16 w ht)
          (constant (F := Ideal) (⟨2, ![M, N]⟩ : Shape) .f32 0x00000000#32))
        (broadcastTo ⟨2, ![M, N]⟩ (shapeCast ⟨2, ![1, N]⟩ b hc) hb)
      = lin x w b := by
  funext i
  obtain ⟨p, q, rfl⟩ : ∃ (p : Fin M) (q : Fin N), i = ix2 p q := ⟨i 0, i 1, eq_ix2 i⟩
  refine (addf_apply _ _ _).trans ?_
  rw [matmul_plain_zero_apply, kernBias_apply, lin_apply]
  rfl

end Cert.LibDense

end
-- ==== Proof.LibRowFold.lean ====
import Idealize.ShloMosaic.PureOps.Ideal.Laws
import Idealize.ShloMosaic.Lib.ValueIdx
import Idealize.ShloMosaic.Lib.Pipeline.Value

/-!
# A tile with two leading unit axes, and a row's maximum as a fold

A pipelined kernel that squeezes the batch and head axes of a rank-4 array sees each block as `[1, 1, a, b]` and casts it
to the matrix `[a, b]` on the way in and back on the way out: the matrix at `(i, j)` is the block at `(0, 0, i, j)`.
A `vector.multi_reduction <maximumf>` of an `[a, b]` matrix over axis 1 is, on the extended reals, at row `i` the fold of
`max` over the row's entries, started from the accumulator's value.
-/

noncomputable section

namespace Cert.LibRowFold

open Idealize.ShloMosaic Idealize.ShloMosaic.ValueIdx

variable {α : Type}

/-- A `[1, 1, a, b]` block cast to the matrix `[a, b]` reads, at `(i, j)`, the block at `(0, 0, i, j)`: both sit at
    row-major position `i · b + j`. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add, Nat.mul_one, Nat.add_zero])

/-- The matrix `[a, b]` cast to a `[1, 1, a, b]` block reads, at `(u, v, i, j)`, the matrix at `(i, j)`. -/
theorem shapeCast_ab_11ab_apply {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_four, Shape.rowMajor_val_two]
    show i.val * b + j.val = ((u.val * 1 + v.val) * a + i.val) * b + j.val
    simp only [hu, hv, Nat.zero_mul, Nat.zero_add, Nat.mul_one, Nat.add_zero])

/-- On the extended reals a `vector.multi_reduction <maximumf>` of an `[a, b]` matrix over axis 1 is, at row `i`, the
    fold of `max` from the accumulator's value over the entries `(i, k)` of the row. -/
theorem rowMax_apply {a b : ℕ} {φ : FTy} (src : FVec Ideal (⟨2, ![a, b]⟩ : Shape) φ) (acc : BitVec φ.bits)
    (h : (⟨2, ![a, b]⟩ : Shape).Reduces [1] ⟨1, ![a]⟩) (hφ : FKind.Formats φ) (hacc : acc = FKind.maximumf.neutral φ hφ)
    (i : Fin a) :
    multiReduction .maximumf [1] ⟨1, ![a]⟩ src acc h hφ hacc (ix1 i)
      = (Finset.univ : Finset (Fin b)).fold max (Ideal.ofBits φ acc) (fun k => src (ix2 i k)) := by
  refine (Ideal.multiReduction_maximumf_single src acc h hφ hacc (ix1 i)).trans ?_
  refine congrArg (fun f => (Finset.univ : Finset (Fin b)).fold max (Ideal.ofBits φ acc) f) (funext fun k => ?_)
  refine congrArg src (funext fun ax => Fin.ext ?_)
  match ax with
  | ⟨0, _⟩ => rfl
  | ⟨1, _⟩ => rfl

end Cert.LibRowFold

end
-- ==== Proof.LibKeepdims.lean ====
import Idealize.ShloMosaic.PureOps.Ideal.Laws
import Idealize.ShloMosaic.Lib.ValueIdx
import Idealize.ShloMosaic.Lib.Pipeline.Value

/-!
# A sum over the last axis kept as a column, read at an entry

`jnp.sum(x, axis=-1, keepdims=True)` of an `[a, b]` array lowers to three vector operations: a reduction over axis 1
into `[a]`, a shape cast of that vector to the column `[a, 1]`, and, where the column meets the array again, a broadcast
of the column along its unit axis back to `[a, b]`. Each is read here at an index written by coordinates: the column at
`(i, u)` is the vector at `i`, the broadcast at `(i, j)` is the column at `(i, 0)`, and on the extended reals the
reduction at `i` is the sum over `k` of the array at `(i, k)`.
-/

noncomputable section

namespace Cert.LibKeepdims

open Idealize.ShloMosaic Idealize.ShloMosaic.ValueIdx

variable {α : Type}

/-- An `[a]` vector cast to the column `[a, 1]` reads, at `(i, u)`, the vector at `i`: the row-major position of
    `(i, u)` in `[a, 1]` is `i · 1 + u = i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast along its unit axis to `[a, b]` reads, at `(i, j)`, the column at `(i, 0)`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- On the extended reals a `vector.multi_reduction <add>` of an `[a, b]` array over axis 1, started from the zero word,
    is at `i` the sum over `k` of the array at `(i, k)`. The neutrality evidence is typed as a printed body carries it
    (an equation between the two zero words). -/
theorem rowSum_apply {a b : ℕ} {φ : FTy} (src : FVec Ideal (⟨2, ![a, b]⟩ : Shape) φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ k : Fin b, src (ix2 i k) := by
  refine (Ideal.multiReduction_add_single src acc h hφ hacc (ix1 i)).trans ?_
  refine Finset.sum_congr rfl fun k _ => congrArg src (funext fun ax => Fin.ext ?_)
  match ax with
  | ⟨0, _⟩ => rfl
  | ⟨1, _⟩ => rfl

end Cert.LibKeepdims

end
-- ==== Proof.LibSoftmaxRows.lean ====
import proofs.«164433_j46909632807735_1_alg».proof.Proof.LibRowFold
import proofs.«164433_j46909632807735_1_alg».proof.Proof.LibKeepdims
import Idealize.ShloMosaic.Lib.Pipeline.Value
import Idealize.ShloMosaic.Lib.ValueIdx
import Idealize.ShloMosaic.Lib.ValueLayout
import Idealize.ShloMosaic.PureOps.Ideal.Laws

/-!
# A row softmax read at an entry, on the extended reals

`smaxOf l q` is the softmax of one row `l : Fin n → EReal` at position `q` as jax.nn.softmax computes it: with
`mxOf l` the row's maximum folded from -inf and joined with -inf once more, `exp (l q - mxOf l)` over the sum of
`exp (l j - mxOf l)`. A Pallas kernel's spelling over a block `[a, n]` — lane reductions `multi_reduction <maximumf>`
from -inf and `<add>` from zero along axis 1, each result re-laid `[a] → [a, 1] → [a, n]` — is `smaxOf` of the block's
row at every entry (`kerSoftmax_apply`, with `kerMax_apply` and `kerExp_apply` for its stages, `keep_apply` for the
keepdims re-lay and `biasRow_apply` for a `[n]` vector re-laid as a row and spread down the rows). The host's
`stablehlo.reduce` with maximum over axis 1 of `[a, n]` is the same fold of `max` over the row (`hostRowMax_apply`).
-/

set_option maxRecDepth 16384

noncomputable section

namespace Cert.LibSoftmaxRows

open Idealize.ShloMosaic Idealize.ShloMosaic.TcCoe Idealize.ShloMosaic.ValueIdx

/-! ## The softmax of one row, as a function of the row -/

section RowSoftmax
variable {n : ℕ}

/-- The extended real the word `0xFF800000` denotes (minus infinity); both sides fold from this same word, so its value is
    never needed. -/
def ninf : EReal := Ideal.ofBits .f32 0xFF800000#32

/-- A row's maximum as both programs take it: the fold of `max` over the row from `ninf`, joined with `ninf` once more. -/
def mxOf (l : Fin n → EReal) : EReal := max ninf ((Finset.univ : Finset (Fin n)).fold max ninf l)

/-- The softmax of the row `l` at lane `q`: `exp (l q - m) / ∑ j, exp (l j - m)` with `m` the row's maximum. -/
def smaxOf (l : Fin n → EReal) (q : Fin n) : EReal :=
  Ideal.div (Ideal.exp (l q - mxOf l)) (∑ j : Fin n, Ideal.exp (l j - mxOf l))

end RowSoftmax

/-! ## The kernel's side -/

section Kernel
variable {α : Type}

/-- The exponential of a vector read at an index is the exponential of the element. -/
theorem exp_apply {s : Shape} {φ : FTy} (v : FVec Ideal s φ) (i : s.Idx) : exp v i = Ideal.exp (v i) := rfl

/-- An `[a]` vector re-laid as the column `[a, 1]` and spread along the row to `[a, n]` reads, at `(p, q)`, the vector at `p`. -/
theorem keep_apply {a n : ℕ} (u : (⟨1, ![a]⟩ : Shape).Idx → α) (h1 : (⟨1, ![a]⟩ : Shape).ShapeCasts ⟨2, ![a, 1]⟩)
    (h2 : (⟨2, ![a, 1]⟩ : Shape).Broadcasts ⟨2, ![a, n]⟩) (p : Fin a) (q : Fin n) :
    broadcastTo ⟨2, ![a, n]⟩ (shapeCast ⟨2, ![a, 1]⟩ u h1) h2 (ix2 p q) = u (ix1 p) :=
  (Cert.LibKeepdims.broadcastTo_a1_ab_apply _ h2 p q).trans (Cert.LibKeepdims.shapeCast_a_a1_apply u h1 p 0)

/-- An `[n]` vector re-laid as the row `[1, n]` (and cast once more to the same shape) and spread down `a` rows reads, at
    `(p, q)`, the vector at `q`. -/
theorem biasRow_apply {a n : ℕ} (b : (⟨1, ![n]⟩ : Shape).Idx → α) (h : (⟨1, ![n]⟩ : Shape).ShapeCasts ⟨2, ![1, n]⟩)
    (h1 : (⟨2, ![1, n]⟩ : Shape).ShapeCasts ⟨2, ![1, n]⟩) (h2 : (⟨2, ![1, n]⟩ : Shape).Broadcasts ⟨2, ![a, n]⟩)
    (p : Fin a) (q : Fin n) :
    broadcastTo ⟨2, ![a, n]⟩ (shapeCast ⟨2, ![1, n]⟩ (shapeCast ⟨2, ![1, n]⟩ b h) h1) h2 (ix2 p q) = b (ix1 q) := by
  rw [shapeCast_self]
  exact (broadcastTo_1b_ab_apply _ h2 p q).trans (shapeCast_a_1a_apply b h 0 q)

/-- The kernel's row maximum: the lane reduction from the minus-infinity word joined with that word's splat, at row `p`. -/
theorem kerMax_apply {a n : ℕ} (V : FVec Ideal (⟨2, ![a, n]⟩ : Shape) .f32)
    (hr : (⟨2, ![a, n]⟩ : Shape).Reduces [1] ⟨1, ![a]⟩) (hφ : FKind.Formats .f32)
    (hmax : (0xFF800000#32 : BitVec FTy.f32.bits) = FKind.maximumf.neutral .f32 hφ) (p : Fin a) :
    maximumf (broadcast (⟨1, ![a]⟩ : Shape) (FloatOps.ofBits (F := Ideal) .f32 0xFF800000#32))
        (multiReduction .maximumf [1] ⟨1, ![a]⟩ V 0xFF800000#32 hr hφ hmax) (ix1 p)
      = mxOf (fun j => V (ix2 p j)) := by
  rw [maximumf_apply, broadcast_apply, Cert.LibRowFold.rowMax_apply]
  rfl

end Kernel

section KernelBlock
variable {a n : ℕ} (V : FVec Ideal (⟨2, ![a, n]⟩ : Shape) .f32)
    (hr : (⟨2, ![a, n]⟩ : Shape).Reduces [1] ⟨1, ![a]⟩) (hφ : FKind.Formats .f32)
    (hmax : (0xFF800000#32 : BitVec FTy.f32.bits) = FKind.maximumf.neutral .f32 hφ)
    (hadd : (0x00000000#32 : BitVec FTy.f32.bits) = FKind.add.neutral .f32 hφ)
    (h1 : (⟨1, ![a]⟩ : Shape).ShapeCasts ⟨2, ![a, 1]⟩) (h2 : (⟨2, ![a, 1]⟩ : Shape).Broadcasts ⟨2, ![a, n]⟩)

/-- The kernel's exponentials: `exp` of the array less its row maxima re-laid over the rows, at `(p, j)`. -/
theorem kerExp_apply (p : Fin a) (j : Fin n) :
    exp (subf V (broadcastTo ⟨2, ![a, n]⟩ (shapeCast ⟨2, ![a, 1]⟩
          (maximumf (broadcast (⟨1, ![a]⟩ : Shape) (FloatOps.ofBits (F := Ideal) .f32 0xFF800000#32))
            (multiReduction .maximumf [1] ⟨1, ![a]⟩ V 0xFF800000#32 hr hφ hmax)) h1) h2)) (ix2 p j)
      = Ideal.exp (V (ix2 p j) - mxOf (fun k => V (ix2 p k))) := by
  rw [exp_apply, subf_apply, keep_apply, kerMax_apply]

/-- The kernel's softmax block of an `[a, n]` array `V` (row maxima, exponentials, row sums from the zero word, quotient),
    read at `(p, q)`: the softmax of row `p` of `V` at lane `q`. -/
theorem kerSoftmax_apply (p : Fin a) (q : Fin n) :
    divf (exp (subf V (broadcastTo ⟨2, ![a, n]⟩ (shapeCast ⟨2, ![a, 1]⟩
          (maximumf (broadcast (⟨1, ![a]⟩ : Shape) (FloatOps.ofBits (F := Ideal) .f32 0xFF800000#32))
            (multiReduction .maximumf [1] ⟨1, ![a]⟩ V 0xFF800000#32 hr hφ hmax)) h1) h2)))
      (broadcastTo ⟨2, ![a, n]⟩ (shapeCast ⟨2, ![a, 1]⟩
        (multiReduction .add [1] ⟨1, ![a]⟩ (exp (subf V (broadcastTo ⟨2, ![a, n]⟩ (shapeCast ⟨2, ![a, 1]⟩
          (maximumf (broadcast (⟨1, ![a]⟩ : Shape) (FloatOps.ofBits (F := Ideal) .f32 0xFF800000#32))
            (multiReduction .maximumf [1] ⟨1, ![a]⟩ V 0xFF800000#32 hr hφ hmax)) h1) h2))) 0x00000000#32 hr hφ hadd) h1) h2)
      (ix2 p q)
    = smaxOf (fun j => V (ix2 p j)) q := by
  rw [divf_apply, keep_apply, Cert.LibKeepdims.rowSum_apply, kerExp_apply]
  unfold smaxOf
  exact congrArg (Ideal.div _) (Finset.sum_congr rfl fun j _ => kerExp_apply V hr hφ hmax h1 h2 p j)

end KernelBlock

/-! ## The host's row maximum -/

/-- The host's reduce with a maximum body over axis 1 of an `[a, n]` array, at row `p`: the fold of `max` over the row's
    entries from the initial value's element. -/
theorem hostRowMax_apply {a n : ℕ} (x : FVec Ideal (⟨2, ![a, n]⟩ : Shape) .f32) {u : Shape} (init : u.Idx → Ideal .f32)
    (h' : (⟨2, ![a, n]⟩ : Shape).ReducesTo [1] ⟨1, ![a]⟩) (h : (⟨2, ![a, n]⟩ : Shape).Reduces [1] ⟨1, ![a]⟩)
    (hu : 0 < u.numel) (p : Fin a) :
    Host.reduce FloatOps.maximumf x init h' hu (ix1 p)
      = (Finset.univ : Finset (Fin n)).fold max (init (Shape.Idx.first hu)) (fun k => x (ix2 p k)) := by
  rw [Host.reduce_eq_fold_single FloatOps.maximumf x init h' h hu]
  refine congrArg (fun f => (Finset.univ : Finset (Fin n)).fold max (init (Shape.Idx.first hu)) f) (funext fun k => ?_)
  refine congrArg x (funext fun ax => Fin.ext ?_)
  match ax with
  | ⟨0, _⟩ => rfl
  | ⟨1, _⟩ => rfl

end Cert.LibSoftmaxRows

end
-- ==== Proof.LibLogSoftmaxRows.lean ====
import proofs.«164433_j46909632807735_1_alg».proof.Proof.LibRowFold
import proofs.«164433_j46909632807735_1_alg».proof.Proof.LibKeepdims
import proofs.«164433_j46909632807735_1_alg».proof.Proof.LibSoftmaxRows
import Idealize.ShloMosaic.Lib.Pipeline.Value
import Idealize.ShloMosaic.Lib.ValueIdx
import Idealize.ShloMosaic.Lib.ValueLayout
import Idealize.ShloMosaic.Lib.StableHlo.Predicate
import Idealize.ShloMosaic.PureOps.Ideal.Laws

/-!
# A row log-softmax read as one function of the rows, on the extended reals

`lsmRow l q` is the log-softmax of one row `l : Fin n → EReal` at lane `q`: with `m = mxRow l` the row's maximum folded
from the word `0xFF800000`, it is `(l q - m) - log (∑ j, exp (l j - m))`. `lsmRows g` applies it to every row of an
`[a, n]` array. Two spellings of it are read here as that one function, for every `a` and `n`:

* a kernel's (`kerLogSoftmax_eq`): lane reductions `multi_reduction <maximumf>` and `<add>` along axis 1, each result
  re-laid `[a] → [a, 1] → [a, n]`, the logarithm taken on the `[a, 1]` column;
* the host's (`hostLogSoftmax_eq`), as jax.nn.log_softmax lowers: `reduce` with maximum over axis 1 from the same word,
  joined once more with that word's splat (a no-op: the fold already starts there), the two-step `broadcast_in_dim`
  `[a] → [a, 1] → [a, n]`, `reduce` with add from zero, `log` on the column.

A row of the result depends on the same row of the argument only (`lsmRows_rows`).
-/

noncomputable section

namespace Cert.LibLogSoftmaxRows

open Idealize.ShloMosaic Idealize.ShloMosaic.TcCoe Idealize.ShloMosaic.ValueIdx

/-! ## The log-softmax of one row -/

section Row
variable {n : ℕ}

/-- The extended real the word `0xFF800000` denotes; both spellings fold from this word, so its value is never needed. -/
def ninf : EReal := Ideal.ofBits .f32 0xFF800000#32

/-- A row's maximum: the fold of `max` over the row from `ninf`. -/
def mxRow (l : Fin n → EReal) : EReal := (Finset.univ : Finset (Fin n)).fold max ninf l

/-- The log-softmax of the row `l` at lane `q`. -/
def lsmRow (l : Fin n → EReal) (q : Fin n) : EReal :=
  (l q - mxRow l) - Ideal.log (∑ j : Fin n, Ideal.exp (l j - mxRow l))

/-- Joining the fold with its own starting value once more changes nothing. -/
theorem max_ninf_mxRow (l : Fin n → EReal) : max ninf (mxRow l) = mxRow l :=
  max_eq_right ((Finset.le_fold_max ninf).mpr (Or.inl le_rfl))

end Row

/-- The log-softmax of every row of an `[a, n]` array. -/
def lsmRows {a n : ℕ} (g : (⟨2, ![a, n]⟩ : Shape).Idx → EReal) : (⟨2, ![a, n]⟩ : Shape).Idx → EReal :=
  fun i => lsmRow (fun k => g (ix2 (i 0) k)) (i 1)

theorem lsmRows_apply {a n : ℕ} (g : (⟨2, ![a, n]⟩ : Shape).Idx → EReal) (p : Fin a) (q : Fin n) :
    lsmRows g (ix2 p q) = lsmRow (fun k => g (ix2 p k)) q := rfl

/-- Row `p` of the result is a function of row `p` of the argument, whatever the number of rows. -/
theorem lsmRows_rows {a a' n : ℕ} (g : (⟨2, ![a, n]⟩ : Shape).Idx → EReal) (g' : (⟨2, ![a', n]⟩ : Shape).Idx → EReal)
    (p : Fin a) (p' : Fin a') (h : ∀ k : Fin n, g (ix2 p k) = g' (ix2 p' k)) (q : Fin n) :
    lsmRows g (ix2 p q) = lsmRows g' (ix2 p' q) := by
  rw [lsmRows_apply, lsmRows_apply, show (fun k => g (ix2 p k)) = fun k => g' (ix2 p' k) from funext h]

/-- The logarithm of a vector read at an index is the logarithm of the element. -/
theorem log_apply {s : Shape} {φ : FTy} (v : FVec Ideal s φ) (i : s.Idx) : log v i = Ideal.log (v i) := rfl

/-- The host's logarithm and exponential of a vector read at an index are those of the element. -/
theorem hostLog_apply {s : Shape} {φ : FTy} (v : FVec Ideal s φ) (i : s.Idx) : Host.log v i = Ideal.log (v i) := rfl
theorem hostExp_apply {s : Shape} {φ : FTy} (v : FVec Ideal s φ) (i : s.Idx) : Host.exp v i = Ideal.exp (v i) := rfl

/-! ## A kernel's spelling -/

section Kernel
variable {a n : ℕ} (V : FVec Ideal (⟨2, ![a, n]⟩ : Shape) .f32)
    (hr : (⟨2, ![a, n]⟩ : Shape).Reduces [1] ⟨1, ![a]⟩) (hφ : FKind.Formats .f32)
    (hmax : (0xFF800000#32 : BitVec FTy.f32.bits) = FKind.maximumf.neutral .f32 hφ)
    (hadd : (0x00000000#32 : BitVec FTy.f32.bits) = FKind.add.neutral .f32 hφ)
    (h1 : (⟨1, ![a]⟩ : Shape).ShapeCasts ⟨2, ![a, 1]⟩) (h2 : (⟨2, ![a, 1]⟩ : Shape).Broadcasts ⟨2, ![a, n]⟩)

/-- The array less its row maxima re-laid over the rows, at `(p, q)`. -/
theorem kerShift_apply (p : Fin a) (q : Fin n) :
    subf V (broadcastTo ⟨2, ![a, n]⟩ (shapeCast ⟨2, ![a, 1]⟩
        (multiReduction .maximumf [1] ⟨1, ![a]⟩ V 0xFF800000#32 hr hφ hmax) h1) h2) (ix2 p q)
      = V (ix2 p q) - mxRow (fun k => V (ix2 p k)) := by
  rw [subf_apply, Cert.LibSoftmaxRows.keep_apply, Cert.LibRowFold.rowMax_apply]
  rfl

/-- The kernel's log-softmax of an `[a, n]` array is `lsmRows` of it. -/
theorem kerLogSoftmax_eq :
    subf (subf V (broadcastTo ⟨2, ![a, n]⟩ (shapeCast ⟨2, ![a, 1]⟩
          (multiReduction .maximumf [1] ⟨1, ![a]⟩ V 0xFF800000#32 hr hφ hmax) h1) h2))
      (broadcastTo ⟨2, ![a, n]⟩ (log (shapeCast ⟨2, ![a, 1]⟩
        (multiReduction .add [1] ⟨1, ![a]⟩ (exp (subf V (broadcastTo ⟨2, ![a, n]⟩ (shapeCast ⟨2, ![a, 1]⟩
          (multiReduction .maximumf [1] ⟨1, ![a]⟩ V 0xFF800000#32 hr hφ hmax) h1) h2))) 0x00000000#32 hr hφ hadd) h1)) h2)
    = lsmRows V := by
  funext i
  obtain ⟨p, q, rfl⟩ : ∃ (p : Fin a) (q : Fin n), i = ix2 p q := ⟨i 0, i 1, eq_ix2 i⟩
  rw [lsmRows_apply, subf_apply, kerShift_apply, Cert.LibKeepdims.broadcastTo_a1_ab_apply, log_apply,
    Cert.LibKeepdims.shapeCast_a_a1_apply, Cert.LibKeepdims.rowSum_apply]
  unfold lsmRow
  refine congrArg (fun s => _ - Ideal.log s) (Finset.sum_congr rfl fun j _ => ?_)
  rw [Cert.LibSoftmaxRows.exp_apply, kerShift_apply]

end Kernel

/-! ## The host's spelling -/

section Host
variable {a n : ℕ} (x : FVec Ideal (⟨2, ![a, n]⟩ : Shape) .f32)
    (hrt : (⟨2, ![a, n]⟩ : Shape).ReducesTo [1] ⟨1, ![a]⟩) (hr : (⟨2, ![a, n]⟩ : Shape).Reduces [1] ⟨1, ![a]⟩)
    (h0 : 0 < (⟨0, ![]⟩ : Shape).numel)
    (hb0 : (⟨0, ![]⟩ : Shape).BroadcastsInDim ⟨1, ![a]⟩ ![])
    (hb1 : (⟨1, ![a]⟩ : Shape).BroadcastsInDim ⟨2, ![a, 1]⟩ ![0])
    (hb2 : (⟨2, ![a, 1]⟩ : Shape).BroadcastsInDim ⟨2, ![a, n]⟩ ![0, 1])

/-- The two spellings of the index `(p, q)`, of the index `p`, and of the index `(p, 0)` are the same functions. -/
theorem ix2_eq_ij {a n : ℕ} (p : Fin a) (q : Fin n) : (ix2 p q : (⟨2, ![a, n]⟩ : Shape).Idx) = StableHlo.Predicate.ij p q := by
  funext c; match c with | ⟨0, _⟩ => rfl | ⟨1, _⟩ => rfl
theorem ix1_eq_ofFin {a : ℕ} (p : Fin a) : (ix1 p : (⟨1, ![a]⟩ : Shape).Idx) = Shape.Idx.ofFin p := by
  funext c; match c with | ⟨0, _⟩ => rfl
theorem ixP_eq_ix2 {a : ℕ} (p : Fin a) : (StableHlo.Predicate.ixP p : (⟨2, ![a, 1]⟩ : Shape).Idx) = ix2 p (0 : Fin 1) := by
  funext c; match c with | ⟨0, _⟩ => rfl | ⟨1, _⟩ => rfl

include hr

/-- The host's shifted logits at `(p, q)`: the entry less the row's maximum. -/
theorem hostShift_apply (p : Fin a) (q : Fin n) :
    subf x (broadcastInDim ⟨2, ![a, n]⟩ ![0, 1] hb2 (broadcastInDim ⟨2, ![a, 1]⟩ ![0] hb1
        (maximumf (broadcastInDim ⟨1, ![a]⟩ ![] hb0 (constant (F := Ideal) (⟨0, ![]⟩ : Shape) .f32 0xFF800000#32))
          (Host.reduce FloatOps.maximumf x (constant (F := Ideal) (⟨0, ![]⟩ : Shape) .f32 0xFF800000#32) hrt h0)))) (ix2 p q)
      = x (ix2 p q) - mxRow (fun k => x (ix2 p k)) := by
  rw [subf_apply]
  refine congrArg (x (ix2 p q) - ·) ?_
  rw [ix2_eq_ij, StableHlo.Predicate.bcast_rows hb1 hb2, ← ix1_eq_ofFin, maximumf_apply,
    StableHlo.Predicate.bcast_scalar hb0 h0, Cert.LibSoftmaxRows.hostRowMax_apply x _ hrt hr h0 p]
  exact max_ninf_mxRow _

/-- The host's log-softmax of an `[a, n]` array is `lsmRows` of it. -/
theorem hostLogSoftmax_eq :
    subf (subf x (broadcastInDim ⟨2, ![a, n]⟩ ![0, 1] hb2 (broadcastInDim ⟨2, ![a, 1]⟩ ![0] hb1
          (maximumf (broadcastInDim ⟨1, ![a]⟩ ![] hb0 (constant (F := Ideal) (⟨0, ![]⟩ : Shape) .f32 0xFF800000#32))
            (Host.reduce FloatOps.maximumf x (constant (F := Ideal) (⟨0, ![]⟩ : Shape) .f32 0xFF800000#32) hrt h0)))))
      (broadcastInDim ⟨2, ![a, n]⟩ ![0, 1] hb2 (Host.log (broadcastInDim ⟨2, ![a, 1]⟩ ![0] hb1
        (Host.reduceAdd (Host.exp (subf x (broadcastInDim ⟨2, ![a, n]⟩ ![0, 1] hb2 (broadcastInDim ⟨2, ![a, 1]⟩ ![0] hb1
          (maximumf (broadcastInDim ⟨1, ![a]⟩ ![] hb0 (constant (F := Ideal) (⟨0, ![]⟩ : Shape) .f32 0xFF800000#32))
            (Host.reduce FloatOps.maximumf x (constant (F := Ideal) (⟨0, ![]⟩ : Shape) .f32 0xFF800000#32) hrt h0))))))
          (constant (F := Ideal) (⟨0, ![]⟩ : Shape) .f32 0x00000000#32) hrt h0))))
    = lsmRows x := by
  funext i
  obtain ⟨p, q, rfl⟩ : ∃ (p : Fin a) (q : Fin n), i = ix2 p q := ⟨i 0, i 1, eq_ix2 i⟩
  rw [lsmRows_apply, subf_apply, hostShift_apply x hrt hr h0 hb0 hb1 hb2]
  unfold lsmRow
  refine congrArg (fun s : EReal => (x (ix2 p q) - mxRow (fun k => x (ix2 p k))) - s) ?_
  rw [ix2_eq_ij, StableHlo.Predicate.bcast_of_col hb2]
  rw [hostLog_apply, StableHlo.Predicate.bcast_col1 hb1, ← ix1_eq_ofFin]
  refine congrArg Ideal.log ?_
  simp only [Host.reduceAdd, Ideal.hostReduceAdd_def]
  rw [Ideal.hostReduceAdd_single hrt hr, constant_apply, Ideal.ofBits_zero_f32, zero_add]
  refine Finset.sum_congr rfl fun (j : Fin n) _ => ?_
  have hl : hr.lift (ix1 p) j = ix2 p j := by
    funext c; match c with | ⟨0, _⟩ => rfl | ⟨1, _⟩ => rfl
  rw [hl]
  rw [hostExp_apply, hostShift_apply x hrt hr h0 hb0 hb1 hb2]

end Host

end Cert.LibLogSoftmaxRows

end
-- ==== Proof.Layers.lean ====
import proofs.«164433_j46909632807735_1_alg».proof.Proof.LibDenseDefs
import proofs.«164433_j46909632807735_1_alg».proof.Proof.LibDense
import proofs.«164433_j46909632807735_1_alg».proof.Proof.LibLogSoftmaxRows

/-!
# The two dense blocks of the graph network, as functions of whole arrays of extended reals

Each GIN convolution applies a two-layer perceptron to every node's row: `x ↦ relu (x · w₁ + b₁) · w₂ + b₂`. The first
convolution's block ends in another `relu` (`hidden`), the second one's in the row-wise log-softmax (`output`). Both act
on each row by itself, so the same definition at a tile of rows and at the whole array is one function of the row
(`hidden_rows`, `output_rows`): that is all the tiling of the node axis needs.

Also here, in the spelling a kernel has for it: a dense layer whose bias arrives as a `[1, N]` row (`kernLinRow_eq`).
-/

noncomputable section

namespace Cert.Gin

open Idealize.ShloMosaic Idealize.ShloMosaic.ValueIdx Cert.LibDense Cert.LibLogSoftmaxRows

/-- The one row of a `[1, N]` array, as a vector. -/
def rowOf {N : ℕ} (r : (⟨2, ![1, N]⟩ : Shape).Idx → EReal) : Row N := fun j => r (ix2 (0 : Fin 1) (j 0))

/-- A vector laid out as a `[1, N]` row and read back is the vector. -/
theorem rowOf_shapeCast {N : ℕ} (b : Row N) (h : (⟨1, ![N]⟩ : Shape).ShapeCasts ⟨2, ![1, N]⟩) :
    rowOf (shapeCast ⟨2, ![1, N]⟩ b h) = b := by
  funext j
  obtain ⟨q, rfl⟩ : ∃ q : Fin N, j = ix1 q := ⟨j 0, eq_ix1 j⟩
  exact shapeCast_a_1a_apply b h 0 q

/-- The first convolution's block: two dense layers, `relu` after each. -/
def hidden {M K H N : ℕ} (h : Mat M K) (w₁ : Mat K H) (b₁ : Row H) (w₂ : Mat H N) (b₂ : Row N) : Mat M N :=
  reluM (lin (reluM (lin h w₁ b₁)) w₂ b₂)

/-- The second convolution's block: two dense layers with a `relu` between them, then the log-softmax of each row. -/
def output {M K H N : ℕ} (h : Mat M K) (w₁ : Mat K H) (b₁ : Row H) (w₂ : Mat H N) (b₂ : Row N) : Mat M N :=
  lsmRows (lin (reluM (lin h w₁ b₁)) w₂ b₂)

/-- An entry of row `r` of the two dense layers is a function of row `r` of the input. -/
theorem twoLayers_rows {M M' K H N : ℕ} (h : Mat M K) (h' : Mat M' K) (w₁ : Mat K H) (b₁ : Row H) (w₂ : Mat H N) (b₂ : Row N)
    (r : Fin M) (r' : Fin M') (hx : ∀ k : Fin K, h (ix2 r k) = h' (ix2 r' k)) (q : Fin N) :
    lin (reluM (lin h w₁ b₁)) w₂ b₂ (ix2 r q) = lin (reluM (lin h' w₁ b₁)) w₂ b₂ (ix2 r' q) :=
  lin_rows _ _ w₂ w₂ b₂ b₂ r r' q
    (fun k => congrArg relu (lin_rows h h' w₁ w₁ b₁ b₁ r r' k hx (fun _ => rfl) rfl)) (fun _ => rfl) rfl

/-- Row `r` of `hidden` is a function of row `r` of the input, whatever the number of rows. -/
theorem hidden_rows {M M' K H N : ℕ} (h : Mat M K) (h' : Mat M' K) (w₁ : Mat K H) (b₁ : Row H) (w₂ : Mat H N) (b₂ : Row N)
    (r : Fin M) (r' : Fin M') (hx : ∀ k : Fin K, h (ix2 r k) = h' (ix2 r' k)) (q : Fin N) :
    hidden h w₁ b₁ w₂ b₂ (ix2 r q) = hidden h' w₁ b₁ w₂ b₂ (ix2 r' q) :=
  congrArg relu (twoLayers_rows h h' w₁ b₁ w₂ b₂ r r' hx q)

/-- Row `r` of `output` is a function of row `r` of the input, whatever the number of rows. -/
theorem output_rows {M M' K H N : ℕ} (h : Mat M K) (h' : Mat M' K) (w₁ : Mat K H) (b₁ : Row H) (w₂ : Mat H N) (b₂ : Row N)
    (r : Fin M) (r' : Fin M') (hx : ∀ k : Fin K, h (ix2 r k) = h' (ix2 r' k)) (q : Fin N) :
    output h w₁ b₁ w₂ b₂ (ix2 r q) = output h' w₁ b₁ w₂ b₂ (ix2 r' q) :=
  lsmRows_rows _ _ r r' (fun k => twoLayers_rows h h' w₁ b₁ w₂ b₂ r r' hx k) q

/-- A kernel's dense layer whose bias is already a `[1, N]` row: `matmul(bf16 x, bf16 w, 0) + broadcast(row)` is
    `lin x w` with that row as the bias (the change of format is the identity on the extended reals). -/
theorem kernLinRow_eq (M K N : ℕ) (prec : Option ContractPrecision) (hb : (⟨2, ![1, N]⟩ : Shape).Broadcasts ⟨2, ![M, N]⟩)
    (ht : FTy.bf16.bits < FTy.f32.bits)
    (x : FVec Ideal (⟨2, ![M, K]⟩ : Shape) .f32) (w : FVec Ideal (⟨2, ![K, N]⟩ : Shape) .f32) (r : FVec Ideal (⟨2, ![1, N]⟩ : Shape) .f32) :
    addf (matmul (DotDims.plain M K N) prec (truncf .bf16 x ht) (truncf .bf16 w ht)
          (constant (F := Ideal) (⟨2, ![M, N]⟩ : Shape) .f32 0x00000000#32))
        (broadcastTo ⟨2, ![M, N]⟩ r hb)
      = lin x w (rowOf r) := by
  funext i
  obtain ⟨p, q, rfl⟩ : ∃ (p : Fin M) (q : Fin N), i = ix2 p q := ⟨i 0, i 1, eq_ix2 i⟩
  refine (addf_apply _ _ _).trans ?_
  rw [matmul_plain_zero_apply, broadcastTo_1b_ab_apply, lin_apply]
  rfl

end Cert.Gin

end
-- ==== Proof.KernelPayloads.lean ====
import proofs.«164433_j46909632807735_1_alg».proof.Proof.Gen.KernelIdeal.Skeleton
import proofs.«164433_j46909632807735_1_alg».proof.Proof.Layers
import proofs.«164433_j46909632807735_1_alg».proof.Proof.LibLayout
import Idealize.ShloMosaic.Lib.Pipeline.Value

/-!
# What each kernel body stores, as a function of the blocks it loads

At the extended reals the first kernel's stored value is `hidden` of its node tile, the two weights and the two bias
rows; the second kernel's is `output` of its. The bodies narrow to bf16 before each matrix product, which is the identity
here; their contraction records are the plain rank-2 contraction; the bias rows arrive as `[1, N]` arrays.
-/

noncomputable section

namespace Cert.KernelIdeal.Payloads

open Idealize.ShloMosaic Idealize.ShloMosaic.ValueIdx Cert.KernelIdeal Cert.KernelIdeal.Gen Cert.LibDense Cert.Gin

/-- The printed contraction records are the plain rank-2 contraction. -/
theorem dotA_eq : dot_S5000x128_S128x256_S5000x256_1_0_0_1_n_n = DotDims.plain 5000 128 256 := rfl
theorem dotB_eq : dot_S5000x256_S256x256_S5000x256_1_0_0_1_n_n = DotDims.plain 5000 256 256 := rfl
theorem dotC_eq : dot_S5000x256_S256x2_S5000x2_1_0_0_1_n_n = DotDims.plain 5000 256 2 := rfl

/-- The first kernel stores `hidden` of the blocks it loads. -/
theorem pay0_eq (v0 : Vec Ideal S5000x128 .f32) (v3 : Vec Ideal S128x256 .f32) (v5 : Vec Ideal S256x256 .f32)
    (v7 : Vec Ideal S1x256 .f32) (v9 : Vec Ideal S1x256 .f32) :
    k0_pay1 (F := Ideal) v0 v3 v5 v7 v9 = hidden (M := 5000) (K := 128) (H := 256) (N := 256) v0 v3 (rowOf v7) v5 (rowOf v9) := by
  unfold k0_pay1
  dsimp only
  rw [shapeCast_self, shapeCast_self, shapeCast_self, dotA_eq, dotB_eq]
  rw [kernLinRow_eq 5000 128 256, kernRelu_eq, kernLinRow_eq 5000 256 256, kernRelu_eq]
  rfl

/-- The second kernel stores `output` of the blocks it loads. -/
theorem pay1_eq (v0 : Vec Ideal S5000x256 .f32) (v3 : Vec Ideal S256x256 .f32) (v5 : Vec Ideal S256x2 .f32)
    (v7 : Vec Ideal S1x256 .f32) (v9 : Vec Ideal S1x2 .f32) :
    k1_pay1 (F := Ideal) v0 v3 v5 v7 v9 = output (M := 5000) (K := 256) (H := 256) (N := 2) v0 v3 (rowOf v7) v5 (rowOf v9) := by
  unfold k1_pay1
  dsimp only
  rw [shapeCast_self, shapeCast_self, shapeCast_self, dotB_eq, dotC_eq]
  rw [kernLinRow_eq 5000 256 256, kernRelu_eq, kernLinRow_eq 5000 256 2]
  exact Cert.LibLogSoftmaxRows.kerLogSoftmax_eq _ _ _ _ _ _ _

end Cert.KernelIdeal.Payloads

end
-- ==== Proof.KernelArrays0.lean ====
import proofs.«164433_j46909632807735_1_alg».proof.Proof.Gen.KernelIdeal.Frame
import proofs.«164433_j46909632807735_1_alg».proof.Proof.KernelPayloads
import Idealize.ShloMosaic.Lib.Pipeline.Value

/-!
# The array the first pallas_call leaves, as one function of the arrays it finds

The call walks the node axis in ten tiles of 5000 rows. At tile `t` its body stores `hidden` of rows
`5000 t … 5000 t + 4999` of the node array (the weights and bias rows are read whole at every tile), and the write-back
puts that tile at the same rows of the result. `hidden` acts on each row by itself, so every tile is the restriction of
ONE whole-array function, `hidden` of the whole node array, and the ten tiles cover the result.
-/

set_option maxRecDepth 16384

noncomputable section

namespace Cert.KernelIdeal.Arrays0

open Idealize.ShloMosaic Idealize.ShloMosaic.TcCoe Idealize.ShloMosaic.ValueIdx Idealize.SL.Sem
open Idealize.ShloMosaic.Pipeline (Dat)
open Cert.KernelIdeal Cert.KernelIdeal.Gen Cert.LibDense Cert.Gin

variable (V : (c : Dev nD) → (b : Ref sig .tc) → Buf (Elt Ideal) ((c : Thread nD τ).loc b))

theorem hz : (![0, 0] : Fin 2 → Nat) = fun _ => 0 := funext fun a => by fin_cases a <;> rfl

/-! ## The arrays the call finds, by name and at their literal types -/

abbrev nodes (c : Dev nD) : Vec Ideal S50000x128 .f32 := V c main_v14
abbrev wA (c : Dev nD) : Vec Ideal S128x256 .f32 := V c main_arg2
abbrev bA (c : Dev nD) : Vec Ideal S1x256 .f32 := V c main_v15
abbrev wB (c : Dev nD) : Vec Ideal S256x256 .f32 := V c main_arg4
abbrev bB (c : Dev nD) : Vec Ideal S1x256 .f32 := V c main_v16

/-- What the call leaves in its result array: `hidden` of the whole node array. -/
def result (c : Dev nD) : Vec Ideal S50000x256 .f32 :=
  hidden (M := 50000) (K := 128) (H := 256) (N := 256) (nodes V c) (wA V c) (rowOf (bA V c)) (wB V c) (rowOf (bB V c))

/-! ## The windows' block indices over the grid -/

/-- The node window and the result window move with the tile; the weight and bias windows stay at block 0. -/
theorem idx : ∀ t : Fin cfg0.N, win0_0.index t (0 : Fin 2) = t.val ∧ win0_0.index t (1 : Fin 2) = 0
    ∧ win0_5.index t (0 : Fin 2) = t.val ∧ win0_5.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-! ## The input blocks -/

/-- The node window's block at tile `t` is rows `5000 t …` of the node array. -/
theorem nodes_blk (c : Dev nD) (t : Fin cfg0.N) (x : S5000x128.Idx) (k : S50000x128.Idx)
    (hk0 : (k 0).val = 5000 * t.val + (x 0).val) (hk1 : (k 1).val = (x 1).val) :
    (iblk0 V c 0 t : Vec Ideal S5000x128 .f32) x = nodes V c k := by
  obtain ⟨e0, e1, -⟩ := idx t
  unfold iblk0
  rw [View.read_apply]
  show V c main_v14 _ = V c main_v14 _
  congr 1
  funext a
  apply Fin.ext
  match a with
  | ⟨0, _⟩ => show win0_0.index t (0 : Fin 2) * 5000 + 1 * (x 0).val = (k 0).val; rw [e0, hk0]; omega
  | ⟨1, _⟩ => show win0_0.index t (1 : Fin 2) * 128 + 1 * (x 1).val = (k 1).val; rw [e1, hk1]; omega

/-- The first weight's block is the whole weight, at every tile. -/
theorem wA_blk (c : Dev nD) (t : Fin cfg0.N) : (iblk0 V c 1 t : Vec Ideal S128x256 .f32) = wA V c := by
  obtain ⟨-, -, -, -, e0, e1, -⟩ := idx t
  funext x
  unfold iblk0
  rw [View.read_apply]
  show V c main_arg2 _ = V c main_arg2 x
  congr 1
  funext a
  apply Fin.ext
  match a with
  | ⟨0, _⟩ => show win0_1.index t (0 : Fin 2) * 128 + 1 * (x 0).val = (x 0).val; rw [e0]; omega
  | ⟨1, _⟩ => show win0_1.index t (1 : Fin 2) * 256 + 1 * (x 1).val = (x 1).val; rw [e1]; omega

/-- The first bias row's block is the whole row. -/
theorem bA_blk (c : Dev nD) (t : Fin cfg0.N) : (iblk0 V c 2 t : Vec Ideal S1x256 .f32) = bA V c := by
  obtain ⟨-, -, -, -, -, -, e0, e1, -⟩ := idx t
  funext x
  unfold iblk0
  rw [View.read_apply]
  show V c main_v15 _ = V c main_v15 x
  congr 1
  funext a
  apply Fin.ext
  match a with
  | ⟨0, _⟩ => show win0_2.index t (0 : Fin 2) * 1 + 1 * (x 0).val = (x 0).val; rw [e0]; omega
  | ⟨1, _⟩ => show win0_2.index t (1 : Fin 2) * 256 + 1 * (x 1).val = (x 1).val; rw [e1]; omega

/-- The second weight's block is the whole weight. -/
theorem wB_blk (c : Dev nD) (t : Fin cfg0.N) : (iblk0 V c 3 t : Vec Ideal S256x256 .f32) = wB V c := by
  obtain ⟨-, -, -, -, -, -, -, -, e0, e1, -⟩ := idx t
  funext x
  unfold iblk0
  rw [View.read_apply]
  show V c main_arg4 _ = V c main_arg4 x
  congr 1
  funext a
  apply Fin.ext
  match a with
  | ⟨0, _⟩ => show win0_3.index t (0 : Fin 2) * 256 + 1 * (x 0).val = (x 0).val; rw [e0]; omega
  | ⟨1, _⟩ => show win0_3.index t (1 : Fin 2) * 256 + 1 * (x 1).val = (x 1).val; rw [e1]; omega

/-- The second bias row's block is the whole row. -/
theorem bB_blk (c : Dev nD) (t : Fin cfg0.N) : (iblk0 V c 4 t : Vec Ideal S1x256 .f32) = bB V c := by
  obtain ⟨-, -, -, -, -, -, -, -, -, -, e0, e1⟩ := idx t
  funext x
  unfold iblk0
  rw [View.read_apply]
  show V c main_v16 _ = V c main_v16 x
  congr 1
  funext a
  apply Fin.ext
  match a with
  | ⟨0, _⟩ => show win0_4.index t (0 : Fin 2) * 1 + 1 * (x 0).val = (x 0).val; rw [e0]; omega
  | ⟨1, _⟩ => show win0_4.index t (1 : Fin 2) * 256 + 1 * (x 1).val = (x 1).val; rw [e1]; omega

/-! ## A tile of the result -/

/-- `hidden` of tile `t` of the node array, at row `p`, is `hidden` of the whole node array at row `5000 t + p`. -/
theorem tile_eq (c : Dev nD) (t : Fin cfg0.N) (j : S5000x256.Idx) (i : S50000x256.Idx)
    (hi0 : (i 0).val = 5000 * t.val + (j 0).val) (hi1 : (i 1).val = (j 1).val) :
    hidden (M := 5000) (K := 128) (H := 256) (N := 256) (iblk0 V c 0 t : Vec Ideal S5000x128 .f32) (wA V c) (rowOf (bA V c)) (wB V c) (rowOf (bB V c)) j
      = result V c i := by
  obtain ⟨p, q, rfl⟩ : ∃ (p : Fin 5000) (q : Fin 256), j = ix2 p q := ⟨j 0, j 1, eq_ix2 j⟩
  obtain ⟨r, q', rfl⟩ : ∃ (r : Fin 50000) (q' : Fin 256), i = ix2 r q' := ⟨i 0, i 1, eq_ix2 i⟩
  have hq : q' = q := Fin.ext hi1
  subst hq
  exact hidden_rows _ _ _ _ _ _ p r (fun k => nodes_blk V c t (ix2 p k) (ix2 r k) hi0 rfl) q'

/-- WHAT TILE `t` WRITES BACK is block `t` of `result`. -/
theorem flushed (c : Dev nD) (t : Fin cfg0.N) :
    (dat0 V c).flushed 5 t = ((cfg0.win 5).blk t).view.read (Elt Ideal) (result V c) := by
  obtain ⟨-, -, e0, e1, -⟩ := idx t
  show (cfg0.win 5).cut (grid0.coords t) ((dat0 V c).after 5 t) = _
  rw [after0_5]
  unfold out0_5
  rw [View.canon_unit_zero hz]
  simp only [View.ld_unit_zero (S := S5000x128) hz, View.ld_unit_zero (S := S128x256) hz,
    View.ld_unit_zero (S := S256x256) hz, View.ld_unit_zero (S := S1x256) hz]
  rw [Cert.KernelIdeal.Payloads.pay0_eq, wA_blk, bA_blk, wB_blk, bB_blk]
  funext j
  rw [View.read_apply]
  refine tile_eq V c t _ _ ?_ ?_
  · show win0_5.index t (0 : Fin 2) * 5000 + 1 * (j 0).val = 5000 * t.val + (j 0).val
    rw [e0]; omega
  · show win0_5.index t (1 : Fin 2) * 256 + 1 * (j 1).val = (j 1).val
    rw [e1]; omega

/-! ## The tiles cover the result -/

theorem mem_blk (t : Fin cfg0.N) (i : S50000x256.Idx) :
    i ∈ ((cfg0.win 5).blk t).view.set ↔ ∀ a : Fin 2, win0_5.index t a * S5000x256.size a ≤ (i a).val ∧ (i a).val < win0_5.index t a * S5000x256.size a + S5000x256.size a := by
  show i ∈ ((View.whole main_v17).slice (win0_5.rect t)).set ↔ _
  rw [View.set_slice_whole, Rect.mem_set_unit]
  exact Iff.rfl

/-- Row `r` of the result lies in tile `r / 5000`. -/
theorem cover (i : S50000x256.Idx) : ∃ t : Fin cfg0.N, (cfg0.win 5).flush t = true ∧ i ∈ ((cfg0.win 5).blk t).view.set := by
  have hi0 : (i 0).val < 50000 := (i 0).isLt
  have hi1 : (i 1).val < 256 := (i 1).isLt
  have hN : cfg0.N = 10 := N_0
  refine ⟨⟨(i 0).val / 5000, by rw [hN]; omega⟩, flush0_5 _, ?_⟩
  rw [mem_blk]
  obtain ⟨-, -, e0, e1, -⟩ := idx ⟨(i 0).val / 5000, by rw [hN]; omega⟩
  intro a
  match a with
  | ⟨0, _⟩ =>
    show win0_5.index _ (0 : Fin 2) * 5000 ≤ (i 0).val ∧ (i 0).val < win0_5.index _ (0 : Fin 2) * 5000 + 5000
    rw [e0]
    show (i 0).val / 5000 * 5000 ≤ (i 0).val ∧ (i 0).val < (i 0).val / 5000 * 5000 + 5000
    omega
  | ⟨1, _⟩ =>
    show win0_5.index _ (1 : Fin 2) * 256 ≤ (i 1).val ∧ (i 1).val < win0_5.index _ (1 : Fin 2) * 256 + 256
    rw [e1]
    omega

/-- THE ARRAY after the call: `hidden` of the whole node array. -/
theorem final (c : Dev nD) : (dat0 V c).arrAt 5 cfg0.N = result V c :=
  (dat0 V c).arrAt_eq_of_cover 5 (result V c) (fun t _ => flushed V c t) cover

end Cert.KernelIdeal.Arrays0

end
-- ==== Proof.KernelArrays1.lean ====
import proofs.«164433_j46909632807735_1_alg».proof.Proof.Gen.KernelIdeal.Frame
import proofs.«164433_j46909632807735_1_alg».proof.Proof.KernelPayloads
import Idealize.ShloMosaic.Lib.Pipeline.Value

/-!
# The array the second pallas_call leaves, as one function of the arrays it finds

The same walk as the first call's: ten tiles of 5000 node rows, the weights and bias rows read whole at every tile. At
tile `t` the body stores `output` (two dense layers and the row-wise log-softmax over the two classes) of rows
`5000 t … 5000 t + 4999` of the node array, written back at the same rows of the result. `output` acts on each row by
itself, so every tile is the restriction of `output` of the whole node array, and the ten tiles cover the result.
-/

set_option maxRecDepth 16384

noncomputable section

namespace Cert.KernelIdeal.Arrays1

open Idealize.ShloMosaic Idealize.ShloMosaic.TcCoe Idealize.ShloMosaic.ValueIdx Idealize.SL.Sem
open Idealize.ShloMosaic.Pipeline (Dat)
open Cert.KernelIdeal Cert.KernelIdeal.Gen Cert.LibDense Cert.Gin

variable (V : (c : Dev nD) → (b : Ref sig .tc) → Buf (Elt Ideal) ((c : Thread nD τ).loc b))

theorem hz : (![0, 0] : Fin 2 → Nat) = fun _ => 0 := funext fun a => by fin_cases a <;> rfl

/-! ## The arrays the call finds, by name and at their literal types -/

abbrev nodes (c : Dev nD) : Vec Ideal S50000x256 .f32 := V c main_v28
abbrev wA (c : Dev nD) : Vec Ideal S256x256 .f32 := V c main_arg6
abbrev bA (c : Dev nD) : Vec Ideal S1x256 .f32 := V c main_v29
abbrev wB (c : Dev nD) : Vec Ideal S256x2 .f32 := V c main_arg8
abbrev bB (c : Dev nD) : Vec Ideal S1x2 .f32 := V c main_v30

/-- What the call leaves in its result array: `output` of the whole node array. -/
def result (c : Dev nD) : Vec Ideal S50000x2 .f32 :=
  output (M := 50000) (K := 256) (H := 256) (N := 2) (nodes V c) (wA V c) (rowOf (bA V c)) (wB V c) (rowOf (bB V c))

/-! ## The windows' block indices over the grid -/

/-- The node window and the result window move with the tile; the weight and bias windows stay at block 0. -/
theorem idx : ∀ t : Fin cfg1.N, win1_0.index t (0 : Fin 2) = t.val ∧ win1_0.index t (1 : Fin 2) = 0
    ∧ win1_5.index t (0 : Fin 2) = t.val ∧ win1_5.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0 :=
  (by decide +kernel : ∀ t : Fin grid1.N, _)

/-! ## The input blocks -/

/-- The node window's block at tile `t` is rows `5000 t …` of the node array. -/
theorem nodes_blk (c : Dev nD) (t : Fin cfg1.N) (x : S5000x256.Idx) (k : S50000x256.Idx)
    (hk0 : (k 0).val = 5000 * t.val + (x 0).val) (hk1 : (k 1).val = (x 1).val) :
    (iblk1 V c 0 t : Vec Ideal S5000x256 .f32) x = nodes V c k := by
  obtain ⟨e0, e1, -⟩ := idx t
  unfold iblk1
  rw [View.read_apply]
  show V c main_v28 _ = V c main_v28 _
  congr 1
  funext a
  apply Fin.ext
  match a with
  | ⟨0, _⟩ => show win1_0.index t (0 : Fin 2) * 5000 + 1 * (x 0).val = (k 0).val; rw [e0, hk0]; omega
  | ⟨1, _⟩ => show win1_0.index t (1 : Fin 2) * 256 + 1 * (x 1).val = (k 1).val; rw [e1, hk1]; omega

/-- The first weight's block is the whole weight, at every tile. -/
theorem wA_blk (c : Dev nD) (t : Fin cfg1.N) : (iblk1 V c 1 t : Vec Ideal S256x256 .f32) = wA V c := by
  obtain ⟨-, -, -, -, e0, e1, -⟩ := idx t
  funext x
  unfold iblk1
  rw [View.read_apply]
  show V c main_arg6 _ = V c main_arg6 x
  congr 1
  funext a
  apply Fin.ext
  match a with
  | ⟨0, _⟩ => show win1_1.index t (0 : Fin 2) * 256 + 1 * (x 0).val = (x 0).val; rw [e0]; omega
  | ⟨1, _⟩ => show win1_1.index t (1 : Fin 2) * 256 + 1 * (x 1).val = (x 1).val; rw [e1]; omega

/-- The first bias row's block is the whole row. -/
theorem bA_blk (c : Dev nD) (t : Fin cfg1.N) : (iblk1 V c 2 t : Vec Ideal S1x256 .f32) = bA V c := by
  obtain ⟨-, -, -, -, -, -, e0, e1, -⟩ := idx t
  funext x
  unfold iblk1
  rw [View.read_apply]
  show V c main_v29 _ = V c main_v29 x
  congr 1
  funext a
  apply Fin.ext
  match a with
  | ⟨0, _⟩ => show win1_2.index t (0 : Fin 2) * 1 + 1 * (x 0).val = (x 0).val; rw [e0]; omega
  | ⟨1, _⟩ => show win1_2.index t (1 : Fin 2) * 256 + 1 * (x 1).val = (x 1).val; rw [e1]; omega

/-- The second weight's block is the whole weight. -/
theorem wB_blk (c : Dev nD) (t : Fin cfg1.N) : (iblk1 V c 3 t : Vec Ideal S256x2 .f32) = wB V c := by
  obtain ⟨-, -, -, -, -, -, -, -, e0, e1, -⟩ := idx t
  funext x
  unfold iblk1
  rw [View.read_apply]
  show V c main_arg8 _ = V c main_arg8 x
  congr 1
  funext a
  apply Fin.ext
  match a with
  | ⟨0, _⟩ => show win1_3.index t (0 : Fin 2) * 256 + 1 * (x 0).val = (x 0).val; rw [e0]; omega
  | ⟨1, _⟩ => show win1_3.index t (1 : Fin 2) * 2 + 1 * (x 1).val = (x 1).val; rw [e1]; omega

/-- The second bias row's block is the whole row. -/
theorem bB_blk (c : Dev nD) (t : Fin cfg1.N) : (iblk1 V c 4 t : Vec Ideal S1x2 .f32) = bB V c := by
  obtain ⟨-, -, -, -, -, -, -, -, -, -, e0, e1⟩ := idx t
  funext x
  unfold iblk1
  rw [View.read_apply]
  show V c main_v30 _ = V c main_v30 x
  congr 1
  funext a
  apply Fin.ext
  match a with
  | ⟨0, _⟩ => show win1_4.index t (0 : Fin 2) * 1 + 1 * (x 0).val = (x 0).val; rw [e0]; omega
  | ⟨1, _⟩ => show win1_4.index t (1 : Fin 2) * 2 + 1 * (x 1).val = (x 1).val; rw [e1]; omega

/-! ## A tile of the result -/

/-- `output` of tile `t` of the node array, at row `p`, is `output` of the whole node array at row `5000 t + p`. -/
theorem tile_eq (c : Dev nD) (t : Fin cfg1.N) (j : S5000x2.Idx) (i : S50000x2.Idx)
    (hi0 : (i 0).val = 5000 * t.val + (j 0).val) (hi1 : (i 1).val = (j 1).val) :
    output (M := 5000) (K := 256) (H := 256) (N := 2) (iblk1 V c 0 t : Vec Ideal S5000x256 .f32) (wA V c) (rowOf (bA V c)) (wB V c) (rowOf (bB V c)) j
      = result V c i := by
  obtain ⟨p, q, rfl⟩ : ∃ (p : Fin 5000) (q : Fin 2), j = ix2 p q := ⟨j 0, j 1, eq_ix2 j⟩
  obtain ⟨r, q', rfl⟩ : ∃ (r : Fin 50000) (q' : Fin 2), i = ix2 r q' := ⟨i 0, i 1, eq_ix2 i⟩
  have hq : q' = q := Fin.ext hi1
  subst hq
  exact output_rows _ _ _ _ _ _ p r (fun k => nodes_blk V c t (ix2 p k) (ix2 r k) hi0 rfl) q'

/-- WHAT TILE `t` WRITES BACK is block `t` of `result`. -/
theorem flushed (c : Dev nD) (t : Fin cfg1.N) :
    (dat1 V c).flushed 5 t = ((cfg1.win 5).blk t).view.read (Elt Ideal) (result V c) := by
  obtain ⟨-, -, e0, e1, -⟩ := idx t
  show (cfg1.win 5).cut (grid1.coords t) ((dat1 V c).after 5 t) = _
  rw [after1_5]
  unfold out1_5
  rw [View.canon_unit_zero hz]
  simp only [View.ld_unit_zero (S := S5000x256) hz, View.ld_unit_zero (S := S256x256) hz,
    View.ld_unit_zero (S := S256x2) hz, View.ld_unit_zero (S := S1x256) hz, View.ld_unit_zero (S := S1x2) hz]
  rw [Cert.KernelIdeal.Payloads.pay1_eq, wA_blk, bA_blk, wB_blk, bB_blk]
  funext j
  rw [View.read_apply]
  refine tile_eq V c t _ _ ?_ ?_
  · show win1_5.index t (0 : Fin 2) * 5000 + 1 * (j 0).val = 5000 * t.val + (j 0).val
    rw [e0]; omega
  · show win1_5.index t (1 : Fin 2) * 2 + 1 * (j 1).val = (j 1).val
    rw [e1]; omega

/-! ## The tiles cover the result -/

theorem mem_blk (t : Fin cfg1.N) (i : S50000x2.Idx) :
    i ∈ ((cfg1.win 5).blk t).view.set ↔ ∀ a : Fin 2, win1_5.index t a * S5000x2.size a ≤ (i a).val ∧ (i a).val < win1_5.index t a * S5000x2.size a + S5000x2.size a := by
  show i ∈ ((View.whole main_v31).slice (win1_5.rect t)).set ↔ _
  rw [View.set_slice_whole, Rect.mem_set_unit]
  exact Iff.rfl

/-- Row `r` of the result lies in tile `r / 5000`. -/
theorem cover (i : S50000x2.Idx) : ∃ t : Fin cfg1.N, (cfg1.win 5).flush t = true ∧ i ∈ ((cfg1.win 5).blk t).view.set := by
  have hi0 : (i 0).val < 50000 := (i 0).isLt
  have hi1 : (i 1).val < 2 := (i 1).isLt
  have hN : cfg1.N = 10 := N_1
  refine ⟨⟨(i 0).val / 5000, by rw [hN]; omega⟩, flush1_5 _, ?_⟩
  rw [mem_blk]
  obtain ⟨-, -, e0, e1, -⟩ := idx ⟨(i 0).val / 5000, by rw [hN]; omega⟩
  intro a
  match a with
  | ⟨0, _⟩ =>
    show win1_5.index _ (0 : Fin 2) * 5000 ≤ (i 0).val ∧ (i 0).val < win1_5.index _ (0 : Fin 2) * 5000 + 5000
    rw [e0]
    show (i 0).val / 5000 * 5000 ≤ (i 0).val ∧ (i 0).val < (i 0).val / 5000 * 5000 + 5000
    omega
  | ⟨1, _⟩ =>
    show win1_5.index _ (1 : Fin 2) * 2 ≤ (i 1).val ∧ (i 1).val < win1_5.index _ (1 : Fin 2) * 2 + 2
    rw [e1]
    omega

/-- THE ARRAY after the call: `output` of the whole node array. -/
theorem final (c : Dev nD) : (dat1 V c).arrAt 5 cfg1.N = result V c :=
  (dat1 V c).arrAt_eq_of_cover 5 (result V c) (fun t _ => flushed V c t) cover

end Cert.KernelIdeal.Arrays1

end
-- ==== Proof.Aggregate.lean ====
import proofs.«164433_j46909632807735_1_alg».proof.Proof.ReferenceRead
import proofs.«164433_j46909632807735_1_alg».proof.Proof.Layers

/-!
# The sum-aggregation over the edges, and the whole network, as functions of the arrays

A GIN convolution first adds to every node's row the rows of its in-neighbours: edge `j → i` adds row `j` of the node
array into row `i`. Both programs spell it with the same host operations (the source indices wrapped as jnp wraps
negative ones, a row gather, a scatter-add into zeros, and the sum with the node array itself), so it is carried here as
ONE function of the node array and the edge list and never opened: `aggregate128` on the input features, `aggregate256`
on the hidden features. `network` is the whole forward pass: aggregate, `hidden`, aggregate, `output`.
-/

noncomputable section

namespace Cert.Gin

open Idealize.ShloMosaic Cert.ReferenceIdeal Cert.ReferenceIdeal.ReadP

variable {F : FTy → Type} [FloatOps F]

/-- The input features plus, for every node, the sum of its in-neighbours' input features. -/
def aggregate128 (x : (⟨S50000x128, .f32⟩ : BufTy).Contents (Elt F)) (e : (⟨S2x600000, .i32⟩ : BufTy).Contents (Elt F)) :
    (⟨S50000x128, .f32⟩ : BufTy).Contents (Elt F) :=
  val_main_v14 (F := F) x e

/-- The hidden features plus, for every node, the sum of its in-neighbours' hidden features. -/
def aggregate256 (h : (⟨S50000x256, .f32⟩ : BufTy).Contents (Elt F)) (e : (⟨S2x600000, .i32⟩ : BufTy).Contents (Elt F)) :
    (⟨S50000x256, .f32⟩ : BufTy).Contents (Elt F) :=
  addf h (Host.scatterAdd scatter_S50000x256_S600000x1_S600000x256_1_0_0_1 (val_main_v34 (F := F)) (val_main_v35 (F := F) e)
    (Host.gather gather_S50000x256_S600000x1_S600000x256_1_0_n_n_0_1_1256 h (val_main_v32 (F := F) e)))

/-- The forward pass: two rounds of aggregation, each followed by its dense block — the first ending in `relu`, the second in
    the log-softmax over the two classes. -/
def network (x0 : (⟨S50000x128, .f32⟩ : BufTy).Contents (Elt Ideal)) (x1 : (⟨S2x600000, .i32⟩ : BufTy).Contents (Elt Ideal))
    (x2 : (⟨S128x256, .f32⟩ : BufTy).Contents (Elt Ideal)) (x3 : (⟨S256, .f32⟩ : BufTy).Contents (Elt Ideal))
    (x4 : (⟨S256x256, .f32⟩ : BufTy).Contents (Elt Ideal)) (x5 : (⟨S256, .f32⟩ : BufTy).Contents (Elt Ideal))
    (x6 : (⟨S256x256, .f32⟩ : BufTy).Contents (Elt Ideal)) (x7 : (⟨S256, .f32⟩ : BufTy).Contents (Elt Ideal))
    (x8 : (⟨S256x2, .f32⟩ : BufTy).Contents (Elt Ideal)) (x9 : (⟨S2, .f32⟩ : BufTy).Contents (Elt Ideal)) :
    (⟨S50000x2, .f32⟩ : BufTy).Contents (Elt Ideal) :=
  output (M := 50000) (K := 256) (H := 256) (N := 2)
    (aggregate256 (F := Ideal)
      (hidden (M := 50000) (K := 128) (H := 256) (N := 256) (aggregate128 (F := Ideal) x0 x1) x2 x3 x4 x5) x1)
    x6 x7 x8 x9

end Cert.Gin

end
-- ==== Proof.KernelValue.lean ====
import proofs.«164433_j46909632807735_1_alg».proof.Proof.KernelRun
import proofs.«164433_j46909632807735_1_alg».proof.Proof.KernelArrays0
import proofs.«164433_j46909632807735_1_alg».proof.Proof.KernelArrays1
import proofs.«164433_j46909632807735_1_alg».proof.Proof.Aggregate
import Idealize.ShloMosaic.Lib.StableHlo.Run

/-!
# The kernel program's result as one term of its arguments

Reading @main from its end: the result array is what the second pallas_call leaves, `output` of the arrays it finds; the
node array it finds is the host's aggregation of what the first call left, `hidden` of the arrays THAT one finds, whose
node array is the host's aggregation of the input features. The weights reach the calls untouched and each bias vector
as a `[1, N]` row.
-/

set_option maxRecDepth 16384

noncomputable section

namespace Cert.KernelIdeal.Result

open Idealize.ShloMosaic Idealize.ShloMosaic.TcCoe Idealize.ShloMosaic.StableHlo Idealize.SL.Sem
open Cert.KernelIdeal Cert.KernelIdeal.Gen Cert.LibDense Cert.Gin

variable (m : (ℓ : Loc nD τ sig) → Buf (Elt Ideal) ℓ) (ρ : Dev nD → PrngReg)

/-! ## What the first call finds -/

theorem nodes0 (c : Dev nD) :
    V1 m ρ c main_v14 = aggregate128 (F := Ideal) (m ((c.tc : Thread nD τ).loc main_arg0)) (m ((c.tc : Thread nD τ).loc main_arg1)) := by
  show StableHlo.after hostOps0 (W0 m ρ c) (Proc.devRef .tc main_v14) = _
  after_results
  rfl

theorem src_idx (c : Dev nD) :
    W1 m ρ c (Proc.devRef .tc main_v1) = Cert.ReferenceIdeal.ReadP.val_main_v1 (F := Ideal) (m ((c.tc : Thread nD τ).loc main_arg1)) := by
  show StableHlo.after hostOps0 (W0 m ρ c) (Proc.devRef .tc main_v1) = _
  after_results
  rfl

theorem dst_idx (c : Dev nD) :
    W1 m ρ c (Proc.devRef .tc main_v3) = Cert.ReferenceIdeal.ReadP.val_main_v3 (F := Ideal) (m ((c.tc : Thread nD τ).loc main_arg1)) := by
  show StableHlo.after hostOps0 (W0 m ρ c) (Proc.devRef .tc main_v3) = _
  after_results
  rfl

theorem w1_0 (c : Dev nD) : V1 m ρ c main_arg2 = m ((c.tc : Thread nD τ).loc main_arg2) := by
  show StableHlo.after hostOps0 (W0 m ρ c) (Proc.devRef .tc main_arg2) = _
  after_results

theorem w2_0 (c : Dev nD) : V1 m ρ c main_arg4 = m ((c.tc : Thread nD τ).loc main_arg4) := by
  show StableHlo.after hostOps0 (W0 m ρ c) (Proc.devRef .tc main_arg4) = _
  after_results

theorem b1_0 (c : Dev nD) : V1 m ρ c main_v15 = shapeCast S1x256 (m ((c.tc : Thread nD τ).loc main_arg3)) shapeCasts_S256_S1x256 := by
  show StableHlo.after hostOps0 (W0 m ρ c) (Proc.devRef .tc main_v15) = _
  after_results
  rfl

theorem b2_0 (c : Dev nD) : V1 m ρ c main_v16 = shapeCast S1x256 (m ((c.tc : Thread nD τ).loc main_arg5)) shapeCasts_S256_S1x256 := by
  show StableHlo.after hostOps0 (W0 m ρ c) (Proc.devRef .tc main_v16) = _
  after_results
  rfl

/-- What the first call leaves: `hidden` of the aggregated input features. -/
theorem hidden_arr (c : Dev nD) :
    W2 m ρ c (Proc.devRef .tc main_v17)
      = hidden (M := 50000) (K := 128) (H := 256) (N := 256)
          (aggregate128 (F := Ideal) (m ((c.tc : Thread nD τ).loc main_arg0)) (m ((c.tc : Thread nD τ).loc main_arg1)))
          (m ((c.tc : Thread nD τ).loc main_arg2)) (m ((c.tc : Thread nD τ).loc main_arg3))
          (m ((c.tc : Thread nD τ).loc main_arg4)) (m ((c.tc : Thread nD τ).loc main_arg5)) := by
  refine (W2_arr m ρ c 5).trans ((Cert.KernelIdeal.Arrays0.final (V1 m ρ) c).trans ?_)
  unfold Cert.KernelIdeal.Arrays0.result
  rw [show Cert.KernelIdeal.Arrays0.nodes (V1 m ρ) c = _ from nodes0 m ρ c,
    show Cert.KernelIdeal.Arrays0.wA (V1 m ρ) c = _ from w1_0 m ρ c,
    show Cert.KernelIdeal.Arrays0.wB (V1 m ρ) c = _ from w2_0 m ρ c,
    show Cert.KernelIdeal.Arrays0.bA (V1 m ρ) c = _ from b1_0 m ρ c,
    show Cert.KernelIdeal.Arrays0.bB (V1 m ρ) c = _ from b2_0 m ρ c,
    rowOf_shapeCast, rowOf_shapeCast]

/-! ## What the second call finds -/

theorem nodes1 (c : Dev nD) :
    V3 m ρ c main_v28 = aggregate256 (F := Ideal) (W2 m ρ c (Proc.devRef .tc main_v17)) (m ((c.tc : Thread nD τ).loc main_arg1)) := by
  show StableHlo.after hostOps1 (W2 m ρ c) (Proc.devRef .tc main_v28) = _
  after_results
  rw [W2_of_ne m ρ c main_v1 (by decide), W2_of_ne m ρ c main_v3 (by decide), src_idx, dst_idx]
  rfl

theorem w1_1 (c : Dev nD) : V3 m ρ c main_arg6 = m ((c.tc : Thread nD τ).loc main_arg6) :=
  (((W4_arr m ρ c 1).trans (((dat1 (V3 m ρ) c).arrAt_in 1 rfl _).trans (A_eq1 (V3 m ρ) c 1))).symm).trans (W4_main_arg6 m ρ c)

theorem w2_1 (c : Dev nD) : V3 m ρ c main_arg8 = m ((c.tc : Thread nD τ).loc main_arg8) :=
  (((W4_arr m ρ c 3).trans (((dat1 (V3 m ρ) c).arrAt_in 3 rfl _).trans (A_eq1 (V3 m ρ) c 3))).symm).trans (W4_main_arg8 m ρ c)

theorem arg7_W2 (c : Dev nD) : W2 m ρ c (Proc.devRef .tc main_arg7) = m ((c.tc : Thread nD τ).loc main_arg7) := by
  rw [W2_of_ne m ρ c main_arg7 (by decide)]
  show StableHlo.after hostOps0 (W0 m ρ c) (Proc.devRef .tc main_arg7) = _
  after_results

theorem arg9_W2 (c : Dev nD) : W2 m ρ c (Proc.devRef .tc main_arg9) = m ((c.tc : Thread nD τ).loc main_arg9) := by
  rw [W2_of_ne m ρ c main_arg9 (by decide)]
  show StableHlo.after hostOps0 (W0 m ρ c) (Proc.devRef .tc main_arg9) = _
  after_results

theorem b1_1 (c : Dev nD) : V3 m ρ c main_v29 = shapeCast S1x256 (m ((c.tc : Thread nD τ).loc main_arg7)) shapeCasts_S256_S1x256 := by
  show StableHlo.after hostOps1 (W2 m ρ c) (Proc.devRef .tc main_v29) = _
  after_results
  rw [arg7_W2]
  rfl

theorem b2_1 (c : Dev nD) : V3 m ρ c main_v30 = shapeCast S1x2 (m ((c.tc : Thread nD τ).loc main_arg9)) shapeCasts_S2_S1x2 := by
  show StableHlo.after hostOps1 (W2 m ρ c) (Proc.devRef .tc main_v30) = _
  after_results
  rw [arg9_W2]
  rfl

/-! ## The result -/

/-- The last boundary's contents at the result array are `network` of the launch contents of the arguments. -/
theorem result_eq (c : Dev nD) :
    W4 m ρ c (Proc.devRef .tc main_v31)
      = network (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (m ((c.tc : Thread nD τ).loc main_arg9)) := by
  refine (W4_arr m ρ c 5).trans ((Cert.KernelIdeal.Arrays1.final (V3 m ρ) c).trans ?_)
  unfold Cert.KernelIdeal.Arrays1.result network
  rw [show Cert.KernelIdeal.Arrays1.nodes (V3 m ρ) c = _ from nodes1 m ρ c,
    show Cert.KernelIdeal.Arrays1.wA (V3 m ρ) c = _ from w1_1 m ρ c,
    show Cert.KernelIdeal.Arrays1.wB (V3 m ρ) c = _ from w2_1 m ρ c,
    show Cert.KernelIdeal.Arrays1.bA (V3 m ρ) c = _ from b1_1 m ρ c,
    show Cert.KernelIdeal.Arrays1.bB (V3 m ρ) c = _ from b2_1 m ρ c,
    rowOf_shapeCast, rowOf_shapeCast, hidden_arr]

/-- @main's run with its result named as `network` of the arguments. -/
theorem run : θ_run defs (onTc (τ := τ) (main (F := Ideal))) ⟨m, fun _ => 0, ρ⟩ (fun r => ∀ c : Dev nD,
      r.2.mem ((c.tc : Thread nD τ).loc main_v31)
        = network (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨(h c).1.trans (result_eq m ρ c), (h c).2⟩)
    (Cert.KernelIdeal.GenRun.run_main (F := Ideal) m ρ)

end Cert.KernelIdeal.Result

end
-- ==== Proof.RefValue.lean ====
import proofs.«164433_j46909632807735_1_alg».proof.Proof.ReferenceRead
import proofs.«164433_j46909632807735_1_alg».proof.Proof.Aggregate
import proofs.«164433_j46909632807735_1_alg».proof.Proof.Layers
import proofs.«164433_j46909632807735_1_alg».proof.Proof.LibDense
import proofs.«164433_j46909632807735_1_alg».proof.Proof.LibLayout
import proofs.«164433_j46909632807735_1_alg».proof.Proof.LibLogSoftmaxRows

/-!
# The reference's result is `network` of its arguments

The reference computes each convolution on the whole node array: `dot_general` plus a bias broadcast twice is a dense layer,
`maximum` against the zero splat is `relu`, jax.nn.log_softmax's lowering is the row-wise log-softmax (its extra join of the
row maximum with minus infinity changes nothing), and its aggregation is the same chain of host operations the kernel
program has, kept folded.
-/

set_option maxRecDepth 16384

noncomputable section

namespace Cert.ReferenceIdeal.RefValue

open Idealize.ShloMosaic Cert.ReferenceIdeal Cert.ReferenceIdeal.Gen Cert.ReferenceIdeal.ReadP Cert.LibDense Cert.Gin Cert.LibLogSoftmaxRows

/-- The printed contraction records are the plain rank-2 contraction. -/
theorem dot128_eq : dot_S50000x128_S128x256_S50000x256_1_0_0_1_n_n = DotDims.plain 50000 128 256 := rfl
theorem dot256_eq : dot_S50000x256_S256x256_S50000x256_1_0_0_1_n_n = DotDims.plain 50000 256 256 := rfl
theorem dot2_eq : dot_S50000x256_S256x2_S50000x2_1_0_0_1_n_n = DotDims.plain 50000 256 2 := rfl

variable (x0 : (⟨S50000x128, .f32⟩ : BufTy).Contents (Elt Ideal)) (x1 : (⟨S2x600000, .i32⟩ : BufTy).Contents (Elt Ideal)) (x2 : (⟨S128x256, .f32⟩ : BufTy).Contents (Elt Ideal)) (x3 : (⟨S256, .f32⟩ : BufTy).Contents (Elt Ideal)) (x4 : (⟨S256x256, .f32⟩ : BufTy).Contents (Elt Ideal)) (x5 : (⟨S256, .f32⟩ : BufTy).Contents (Elt Ideal)) (x6 : (⟨S256x256, .f32⟩ : BufTy).Contents (Elt Ideal)) (x7 : (⟨S256, .f32⟩ : BufTy).Contents (Elt Ideal)) (x8 : (⟨S256x2, .f32⟩ : BufTy).Contents (Elt Ideal)) (x9 : (⟨S2, .f32⟩ : BufTy).Contents (Elt Ideal))

/-- After the first convolution and the `relu` between the two: `hidden` of the aggregated input features. -/
theorem hidden_eq :
    val_main_v26 (F := Ideal) x0 x1 x2 x3 x4 x5
      = hidden (M := 50000) (K := 128) (H := 256) (N := 256) (aggregate128 (F := Ideal) x0 x1) x2 x3 x4 x5 := by
  unfold val_main_v26 val_main_v25 val_main_cst_2 val_main_v24 val_main_v23 val_main_v22 val_main_v21 val_main_v20 val_main_v19
    val_main_cst_1 val_main_v18 val_main_v17 val_main_v16 val_main_v15
  rw [dot128_eq, dot256_eq, hostLin_eq 50000 128 256, hostRelu_eq, hostLin_eq 50000 256 256, hostRelu_eq]
  rfl

/-- The second aggregation is `aggregate256` of what the first convolution left. -/
theorem agg_eq :
    val_main_v37 (F := Ideal) x0 x1 x2 x3 x4 x5 = aggregate256 (F := Ideal) (val_main_v26 (F := Ideal) x0 x1 x2 x3 x4 x5) x1 := rfl

/-- The logits: the second convolution's two dense layers. -/
theorem logits_eq :
    val_main_v47 (F := Ideal) x0 x1 x2 x3 x4 x5 x6 x7 x8 x9
      = lin (reluM (lin (val_main_v37 (F := Ideal) x0 x1 x2 x3 x4 x5) x6 x7)) x8 x9 := by
  unfold val_main_v47 val_main_v46 val_main_v45 val_main_v44 val_main_v43 val_main_v42 val_main_cst_6 val_main_v41 val_main_v40
    val_main_v39 val_main_v38
  rw [dot256_eq, dot2_eq, hostLin_eq 50000 256 256, hostRelu_eq, hostLin_eq 50000 256 2]

/-- The called log_softmax is the row-wise log-softmax of the logits. -/
theorem lsm_eq :
    val_main_v48 (F := Ideal) x0 x1 x2 x3 x4 x5 x6 x7 x8 x9 = lsmRows (val_main_v47 (F := Ideal) x0 x1 x2 x3 x4 x5 x6 x7 x8 x9) := by
  unfold val_main_v48 val_main_call0_v10 val_main_call0_v9 val_main_call0_v8 val_main_call0_v7 val_main_call0_cst_1 val_main_call0_v6
    val_main_call0_v5 val_main_call0_v4 val_main_call0_v3 val_main_call0_v2 val_main_call0_v1 val_main_call0_cst_0 val_main_call0_v0
    val_main_call0_cst
  generalize val_main_v47 (F := Ideal) x0 x1 x2 x3 x4 x5 x6 x7 x8 x9 = g
  exact hostLogSoftmax_eq g reducesTo_S50000x2_S50000_d1 (by decide) h_S_ bcast_S_S50000 bcast_S50000_S50000x1_0 bcast_S50000x1_S50000x2_0_1

/-- The reference's result is `network` of its arguments. -/
theorem result_eq :
    val_main_v48 (F := Ideal) x0 x1 x2 x3 x4 x5 x6 x7 x8 x9 = network x0 x1 x2 x3 x4 x5 x6 x7 x8 x9 := by
  rw [lsm_eq, logits_eq, agg_eq, hidden_eq]
  rfl

end Cert.ReferenceIdeal.RefValue

end
-- ==== Proof.lean ====
/-
  A two-layer graph isomorphism network on 50000 nodes and 600000 edges, the kernel program against its jnp reference, on
  the extended reals.

  Both programs compute, twice over, an aggregation and a dense block. The aggregation adds to every node's row the rows
  of its in-neighbours (edge j → i adds row j into row i); both programs spell it with the same host operations, so it is
  carried as one function of the node array and the edge list (Proof/Aggregate.lean) and never opened. The dense block
  is x ↦ relu (x · w₁ + b₁) · w₂ + b₂ on every row, followed by relu after the first aggregation and by the log-softmax
  over the two classes after the second (Proof/Layers.lean).

  The kernel program runs each dense block as a pallas_call over ten tiles of 5000 rows, narrowing to bf16 before every
  matrix product; on the extended reals the narrowing is the identity, a product into the zero accumulator is the plain
  sum over k, and, because the block acts on each row by itself, every tile is the restriction of ONE whole-array
  function and the ten tiles cover the result (Proof/KernelPayloads.lean, Proof/KernelArrays0.lean,
  Proof/KernelArrays1.lean). Read from its end, @main's result is then `network` of the arguments
  (Proof/KernelValue.lean). The reference computes the same blocks on the whole arrays; jax's log_softmax joins the row
  maximum with minus infinity once more, which changes nothing since the maximum is already folded from there
  (Proof/LibLogSoftmaxRows.lean, Proof/RefValue.lean). No law of arithmetic beyond that is used, so finiteness of the
  inputs is never opened.

  The three frames: the two kernel programs' are the generated frame certificates; the reference's is its run with the
  result dropped. The ideal pass rewrote nothing, so `preserves` is trivial.
-/
import proofs.«164433_j46909632807735_1_alg».proof.Defs
import proofs.«164433_j46909632807735_1_alg».proof.Proof.Gen.Kernel
import proofs.«164433_j46909632807735_1_alg».proof.Proof.Gen.Kernel.Frame
import proofs.«164433_j46909632807735_1_alg».proof.Proof.Gen.KernelIdeal
import proofs.«164433_j46909632807735_1_alg».proof.Proof.Gen.KernelIdeal.Frame
import proofs.«164433_j46909632807735_1_alg».proof.Proof.Gen.ReferenceIdeal
import proofs.«164433_j46909632807735_1_alg».proof.Proof.Gen.Pre_finite_inputs
import proofs.«164433_j46909632807735_1_alg».proof.Proof.KernelValue
import proofs.«164433_j46909632807735_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Both programs end with their result at `network` of arguments that agree. -/
theorem algebraic : Cert.algebraic_KernelIdeal_ReferenceIdeal := by
  intro m ρ m' ρ' _ hagree
  refine ⟨_, Cert.KernelIdeal.Result.run m ρ, ?_⟩
  refine (θ_run Cert.ReferenceIdeal.defs _ _).mono (fun _ h c => ⟨(h c).1.trans ?_, (h c).2⟩)
    (Cert.ReferenceIdeal.ValueP.run (F := Ideal) m' ρ')
  obtain ⟨h0, h1, h2, h3, h4, h5, h6, h7, h8, h9⟩ := hagree c
  rw [Cert.ReferenceIdeal.ReadP.val_main_v48_eq, Cert.ReferenceIdeal.RefValue.result_eq, h0, h1, h2, h3, h4, h5, h6, h7, h8, h9]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
